-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S4096 : Shape := ⟨1, ![4096]⟩
abbrev S1024x256 : Shape := ⟨2, ![1024, 256]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 28
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096, .f32⟩
  | .hbm, ⟨18, _⟩ => ⟨S8192, .f32⟩
  | .hbm, ⟨19, _⟩ => ⟨S8192x1, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_12 : BitVec 32 := 0#32
  let v34 : BitVec 1 := Scalar.cmpi .ne v33 c0_i32_12
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  concatenates_S4096_S4096_S8192_d0 : Shape.Concatenates [S4096, S4096] S8192 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  transposes_S1024x256_p1_0_S256x1024 : S1024x256.Transposes [1, 0] S256x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  shapeCasts_S8192x1_S8192 : S8192x1.ShapeCasts S8192
  reducesTo_S8192_S_d0 : S8192.ReducesTo [0] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 85
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x1, .i32⟩
  | .hbm, ⟨36, _⟩ => ⟨S4096x2, .i32⟩
  | .hbm, ⟨37, _⟩ => ⟨S4096, .f32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096x1, .i32⟩
  | .hbm, ⟨59, _⟩ => ⟨S4096x2, .i32⟩
  | .hbm, ⟨60, _⟩ => ⟨S4096, .f32⟩
  | .hbm, ⟨61, _⟩ => ⟨S8192, .f32⟩
  | .hbm, ⟨62, _⟩ => ⟨S8192x8192, .i32⟩
  | .hbm, ⟨63, _⟩ => ⟨S8192x8192, .i32⟩
  | .hbm, ⟨64, _⟩ => ⟨S_, .i32⟩
  | .hbm, ⟨65, _⟩ => ⟨S8192x8192, .i32⟩
  | .hbm, ⟨66, _⟩ => ⟨S8192x8192, .i32⟩
  | .hbm, ⟨67, _⟩ => ⟨S8192x8192, .i1⟩
  | .hbm, ⟨68, _⟩ => ⟨S_, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_v1 : Ref sig .tc := ⟨.hbm, 16, rfl⟩
abbrev main_call1_c : Ref sig .tc := ⟨.hbm, 17, rfl⟩
abbrev main_call1_v2 : Ref sig .tc := ⟨.hbm, 18, rfl⟩
abbrev main_call1_v3 : Ref sig .tc := ⟨.hbm, 19, rfl⟩
abbrev main_call1_c_0 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c_2 : Ref sig .tc := ⟨.hbm, 27, rfl⟩
abbrev main_call1_v9 : Ref sig .tc := ⟨.hbm, 28, rfl⟩
abbrev main_call1_v10 : Ref sig .tc := ⟨.hbm, 29, rfl⟩
abbrev main_call1_c_3 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_v15 : Ref sig .tc := ⟨.hbm, 35, rfl⟩
abbrev main_call1_v16 : Ref sig .tc := ⟨.hbm, 36, rfl⟩
abbrev main_v8 : Ref sig .tc := ⟨.hbm, 37, rfl⟩
abbrev main_call2_v0 : Ref sig .tc := ⟨.hbm, 38, rfl⟩
abbrev main_call2_v1 : Ref sig .tc := ⟨.hbm, 39, rfl⟩
abbrev main_call2_c : Ref sig .tc := ⟨.hbm, 40, rfl⟩
abbrev main_call2_v2 : Ref sig .tc := ⟨.hbm, 41, rfl⟩
abbrev main_call2_v3 : Ref sig .tc := ⟨.hbm, 42, rfl⟩
abbrev main_call2_c_0 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c_2 : Ref sig .tc := ⟨.hbm, 50, rfl⟩
abbrev main_call2_v9 : Ref sig .tc := ⟨.hbm, 51, rfl⟩
abbrev main_call2_v10 : Ref sig .tc := ⟨.hbm, 52, rfl⟩
abbrev main_call2_c_3 : Ref sig .tc := ⟨.hbm, 53, rfl⟩
abbrev main_call2_v11 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_call2_v15 : Ref sig .tc := ⟨.hbm, 58, rfl⟩
abbrev main_call2_v16 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_c : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_cst_0 : Ref sig .tc := ⟨.hbm, 68, rfl⟩
abbrev main_call3_v0 : Ref sig .tc := ⟨.hbm, 69, rfl⟩
abbrev main_call3_v1 : Ref sig .tc := ⟨.hbm, 70, rfl⟩
abbrev main_v16 : Ref sig .tc := ⟨.hbm, 71, rfl⟩
abbrev main_cst_1 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_cst_2 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_cst_3 : Ref sig .tc := ⟨.hbm, 80, rfl⟩
abbrev main_v23 : Ref sig .tc := ⟨.hbm, 81, rfl⟩
abbrev main_cst_4 : Ref sig .tc := ⟨.hbm, 82, rfl⟩
abbrev main_v24 : Ref sig .tc := ⟨.hbm, 83, rfl⟩
abbrev main_v25 : Ref sig .tc := ⟨.hbm, 84, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.K.Runs.lean ====
/-
  What the three runs of the kernel body and the frame share. @main is three stretches of host operations (the
  concatenation of the two inputs; the row norms; the normalised rows `zn`, the positive-pair products and their
  row sums), the region, and eight more host operations. The region reads ONE array, `zn`, through two windows —
  the query tile `(qi, 0)` and the key tile `(kj, 0)` of the 8 × 8 grid — and writes a column of 8192 sums through a
  third, one block of 1024 per query tile, written back at the last key tile only. A scratch column is carried from
  one key tile to the next: zeroed at `kj = 0`, added to at every point, copied to the output block at `kj = 7`.
  Here: the contents the region finds (`V`), @main around the region, that the later lines touch no window's array,
  each window's block, the two branch conditions in closed form over the 64 points, and where the output window is idle.
-/
import proofs.«180956_j86492051407493_1_alg».proof.Proof.Gen.Kernel.Launch
import proofs.«180956_j86492051407493_1_alg».proof.Proof.Gen.Kernel.Skeleton
import proofs.«180956_j86492051407493_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the three stretches of
    host operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host lines before it, the region, the host lines after it. It reduces to the region
    continued by the later lines, at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is neither `zn` nor the column
    of sums. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes the first input: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes the second input: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's current staging buffer holds its block at every point, fetched there or not (where it is not
    fetched the block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the key window, fetched at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first key tile" (`kj = 0`), as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last key tile" (`kj = 7`). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At the first key tile the body stores nothing into the output block, and the block is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- Nor at the middle key tiles. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At the last key tile it stores the whole block. -/
theorem liveAt0_2_C : ∀ t : Fin cfg0.N, ¬cond0_0 (grid0.coords t) → cond0_1 (grid0.coords t) → cfg0.idle 2 (grid0.coords t) = false := by decide +kernel

/-! ## The staging and scratch memrefs -/

/-- One staging buffer of the output window, through which its contents are stated (the choice does not matter). -/
abbrev VO0_2 : View sig .tc .vmem S1024x1 .f32 := (Memref.whole cc0_stg2_0 : Memref sig .tc .vmem S1024x1 .f32).view
/-- Each window's current staging memref at point `t`, spelled as the pipeline passes it, and its wholeness. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The scratch column: a whole scoped buffer of the kernel's own, passed beside the windows. -/
abbrev scM0_0 : Memref sig .tc .vmem S1024x1 .f32 := Memref.whole cc0_scratch0
/-- The same as a view: what the scratch holds is stated through it. -/
abbrev VS0_0 : View sig .tc .vmem S1024x1 .f32 := scM0_0.view

/-- The region's invariant before the first point: the scratch column owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The kernel body at a FIRST key tile (`kj = 0`, so not the last): the scratch column, found at any contents, is zeroed, the masked row sums of the tile are added to it, and the output block is left untouched. The pieces the scratch ends with are found by running the body; they are the witness of the run.
-/
import proofs.«180956_j86492051407493_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in the first-tile case, on whole staging memrefs: the two input tiles at their contents, the output
    block at contents handed back untouched, the scratch at anything; it runs to the continuation holding the inputs
    as they were and the scratch with its pieces written. -/
noncomputable def kernelRun0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .f32) (x1 : Vec F S1024x256 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.RunB.lean ====
/-
  The kernel body at a MIDDLE key tile (`0 < kj < 7`): the masked row sums of the tile are added to the scratch column, found at what the point before left; the output block is left untouched.
-/
import proofs.«180956_j86492051407493_1_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in the middle-tile case: as the first-tile case, the scratch at the contents `xs0` the point before left. -/
noncomputable def kernelRun0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .f32) (x1 : Vec F S1024x256 .f32) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.RunC.lean ====
/-
  The kernel body at the LAST key tile (`kj = 7`): the masked row sums of the tile are added to the scratch column, and the column is then copied whole into the output block, found at any contents.
-/
import proofs.«180956_j86492051407493_1_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in the last-tile case: the output block at anything, ending with its pieces written; the scratch at the
    contents `xs0` the point before left. -/
noncomputable def kernelRun0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .f32) (x1 : Vec F S1024x256 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Frame.lean ====
/-
  What the output block and the scratch column hold after the body at each of the 64 points, the pipeline's proof
  data, and the body obligation. The three cases of the body — first, middle, last key tile — were run one by one;
  here their results are threaded through the points: at a first key tile the scratch is reset and the tile's masked
  row sums added; at every later tile the sums are added to what the point before left; at the last tile the column
  is also copied into the output block, which is written back there and nowhere else. The array of normalised rows is
  read through two windows, so the proof data hold it at two half shares, the query window's and the key window's.
-/
import proofs.«180956_j86492051407493_1_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first key tile the body stores nothing into the output block: no pieces (a placeholder nothing consults, the block being neither written back nor read there). -/
def out0_A_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .f32) (x1 : Vec F S1024x256 .f32) : Vec F S1024x1 .f32 :=
  VO0_2.read (Elt F) (VO0_2.writes (Elt F) VO0_2.junk (kernelRun0_A c i arg2 harg2 arg3 harg3 arg4 harg4 arg5 harg5 hc0 hc1 x0 x1).1)

/-- The pieces the scratch column ends with in this case tile it, so they cover it. -/
theorem scover0_A_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .f32) (x1 : Vec F S1024x256 .f32) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What the first-tile case leaves in the scratch column: its pieces read back. -/
def sout0_A_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .f32) (x1 : Vec F S1024x256 .f32) : Vec F S1024x1 .f32 :=
  VS0_0.read (Elt F) (VS0_0.writes (Elt F) VS0_0.junk (kernelRun0_A c i arg2 harg2 arg3 harg3 arg4 harg4 arg5 harg5 hc0 hc1 x0 x1).2.1)

/-- At a middle key tile the body stores nothing into the output block either. -/
def out0_B_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .f32) (x1 : Vec F S1024x256 .f32) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

/-- The pieces the scratch column ends with in this case tile it, so they cover it. -/
theorem scover0_B_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .f32) (x1 : Vec F S1024x256 .f32) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- What the middle-tile case leaves in the scratch column. -/
def sout0_B_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .f32) (x1 : Vec F S1024x256 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

/-- What the last-tile case leaves in the output block: its pieces read back. -/
def out0_C_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .f32) (x1 : Vec F S1024x256 .f32) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

/-- In the last-tile case the one store into the output block covers it. -/
theorem cover0_C_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .f32) (x1 : Vec F S1024x256 .f32) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- The pieces the scratch column ends with in this case tile it, so they cover it. -/
theorem scover0_C_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .f32) (x1 : Vec F S1024x256 .f32) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- What the last-tile case leaves in the scratch column. -/
def sout0_C_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .f32) (x1 : Vec F S1024x256 .f32) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- The accumulation. After the body at position `n`: the output block's staging buffer and the scratch column, by the
    case the closed forms select at `n`, the scratch of a later tile over what position `n - 1` left. No point is both
    a first and a last key tile. -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- `outsAt0` at a first key tile. -/
theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at a middle key tile: over what the point before left. -/
theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last key tile: over what the point before left. -/
theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch column at anything; afterwards at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outsAt0`; the invariant `PhiS`; nothing owed; the array of
    normalised rows at the left half share for the query window and the right half for the key window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem q0_eq (c : Dev nD) : (dats m 0 c).q 0 = fullShare.left := rfl
theorem q1_eq (c : Dev nD) : (dats m 0 c).q 1 = fullShare.right := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the closed forms say which case the point is in; the
    invariant hands the body the scratch column at what the point before left (at anything before the first point) and
    takes it back at this point's contents; the output block is handed back untouched except at a last key tile, where
    it is left at the case's pieces; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · by_cases h1 : t.val % 8 = 7
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.K.Launch.lean ====
/-
  The launch of the one region when two of its windows read ONE array. The launch deals every unscoped buffer to the
  core whole, at the full share. The array of normalised rows is behind both the query window and the key window, so
  its full share is split in two halves, one for each window (`zn_split`); the column of sums goes whole to the output
  window. Both input windows end at the contents they started with, so after the region the two halves are joined
  again, the eight host operations that follow run over all the unscoped buffers — they read the column of sums and
  the positive-pair column and never touch the rows — and the array is split once more to state what every buffer
  ends holding (`tail_lines`). Around these two steps the run is the library's run of a region continued by host lines.
-/
import proofs.«180956_j86492051407493_1_alg».proof.Proof.K.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-- The two array buffers behind the three windows. -/
theorem arr_image : Finset.univ.image (arrRef spec0) = insert main_v5 {main_v11} := by decide

/-- Both input windows end at the contents the region found. -/
theorem arrAt_in0 (c : Dev nD) (t : ℕ) : (dats m 0 c).arrAt 0 t = V m c main_v5 :=
  ((dats m 0 c).arrAt_in 0 rfl t).trans (A_eq m c 0)
theorem arrAt_in1 (c : Dev nD) (t : ℕ) : (dats m 0 c).arrAt 1 t = V m c main_v5 :=
  ((dats m 0 c).arrAt_in 1 rfl t).trans (A_eq m c 1)

/-- The windows' arrays, one by one: the rows at the left half share for the query window and at the right half for
    the key window, the column of sums whole for the output window. -/
theorem arrays_three (c : Dev nD) (A : (w : Fin cfg0.W) → Buf (Elt F) ((cfg0.win w).arr.view.loc (c.tc : Thread nD τ))) :
    ((dats m 0 c).arrays A : sProp 𝕄)
      = iprop((((c.tc : Thread nD τ).loc main_v5) ↦{fullShare.left} A 0)
          ∗ (((c.tc : Thread nD τ).loc main_v5) ↦{fullShare.right} A 1)
          ∗ (((c.tc : Thread nD τ).loc main_v11) ↦{fullShare} A 2)) := by
  unfold Dat.arrays
  rw [bigSep_W0]
  rw [(arr_whole0 0).set_eq_univ, (arr_whole0 2).set_eq_univ]
  rfl

/-- The buffers behind the arrays, each whole at the full share. -/
theorem arrBufs_two (c : Dev nD) (W : (b : Ref sig .tc) → Buf (Elt F) ((c.tc : Thread nD τ).loc b)) :
    (arrBufs spec0 c W : sProp 𝕄)
      = iprop((((c.tc : Thread nD τ).loc main_v5) ↦{fullShare} W main_v5) ∗ (((c.tc : Thread nD τ).loc main_v11) ↦{fullShare} W main_v11)) := by
  unfold arrBufs
  rw [arr_image, bigSep_insert (by decide), bigSep_singleton]
  rfl

/-- At the region's entry: the rows' full share is dealt in halves to the two windows that read them. -/
theorem zn_split (c : Dev nD) :
    (arrBufs spec0 c (V m c) : sProp 𝕄) ⊢ (dats m 0 c).arrays fun w => (dats m 0 c).arrAt w 0 := by
  rw [arrays_three, arrBufs_two]
  iintro ⟨H5, H11⟩
  ihave H := (pointsTo_share (PosShare.mem_left_op_right fullShare)).1 $$ H5
  icases H with ⟨HL, HR⟩
  isplitl [HL]; · iexact HL
  isplitl [HR]; · iexact HR
  iexact H11

/-! ## The lines after the region -/

/-- What the unscoped buffers hold when the region is left: the windows' arrays at what the write-backs left, every
    other buffer as the lines before the region left it. -/
abbrev Wexit (c : Dev nD) : Valuation τ sig (Elt F) :=
  withArrays spec0 c (V0 m c) fun w => (dats m 0 c).arrAt w cfg0.N

/-- There the rows are as the region found them, whichever of the two windows on them is asked. -/
theorem Wexit_v5 (c : Dev nD) : Wexit m c (Proc.devRef .tc main_v5) = V m c main_v5 := by
  show withArrays spec0 c (V0 m c) (fun w => (dats m 0 c).arrAt w cfg0.N) (Proc.devRef .tc main_v5) = _
  unfold withArrays
  have h : ∃ w', Proc.devRef .tc (arrRef spec0 w') = Proc.devRef (τ := τ) .tc main_v5 := ⟨0, rfl⟩
  rw [dif_pos h]
  suffices ∀ (w' : Fin 3) (e : Proc.devRef .tc (arrRef spec0 w') = Proc.devRef (τ := τ) .tc main_v5),
      cast (congrArg (fun b' : DevRef τ sig => b'.ty.Contents (Elt F)) e) ((dats m 0 c).arrAt w' cfg0.N) = V m c main_v5 from this _ h.choose_spec
  intro w' e
  fin_cases w'
  · exact arrAt_in0 m c _
  · exact arrAt_in1 m c _
  · exact absurd (Proc.devRef_injective _ e) (by decide)

/-- And the column of sums is what the output window's write-backs left. -/
theorem Wexit_v11 (c : Dev nD) : Wexit m c (Proc.devRef .tc main_v11) = (dats m 0 c).arrAt 2 cfg0.N := by
  show withArrays spec0 c (V0 m c) (fun w => (dats m 0 c).arrAt w cfg0.N) (Proc.devRef .tc main_v11) = _
  unfold withArrays
  have h : ∃ w', Proc.devRef .tc (arrRef spec0 w') = Proc.devRef (τ := τ) .tc main_v11 := ⟨2, rfl⟩
  rw [dif_pos h]
  suffices ∀ (w' : Fin 3) (e : Proc.devRef .tc (arrRef spec0 w') = Proc.devRef (τ := τ) .tc main_v11),
      cast (congrArg (fun b' : DevRef τ sig => b'.ty.Contents (Elt F)) e) ((dats m 0 c).arrAt w' cfg0.N) = (dats m 0 c).arrAt 2 cfg0.N from this _ h.choose_spec
  intro w' e
  fin_cases w'
  · exact absurd (Proc.devRef_injective _ e) (by decide)
  · exact absurd (Proc.devRef_injective _ e) (by decide)
  · rfl

/-- The eight lines after the region write neither array. -/
theorem after_keeps (w : Fin 3) (W : Valuation τ sig (Elt F)) :
    StableHlo.after ([hostOps1] : List (List (HloOp τ sig (Elt F)))).flatten W (Proc.devRef .tc (arrRef spec0 w)) = W (Proc.devRef .tc (arrRef spec0 w)) :=
  StableHlo.after_of_forall_not_mem _ _ fun op hop => by
    obtain ⟨ops, hops, hop⟩ := List.mem_flatten.mp hop
    exact sfx_keeps ops hops op hop w

theorem after_v5 (W : Valuation τ sig (Elt F)) :
    StableHlo.after ([hostOps1] : List (List (HloOp τ sig (Elt F)))).flatten W (Proc.devRef .tc main_v5) = W (Proc.devRef .tc main_v5) :=
  after_keeps 0 W
theorem after_v11 (W : Valuation τ sig (Elt F)) :
    StableHlo.after ([hostOps1] : List (List (HloOp τ sig (Elt F)))).flatten W (Proc.devRef .tc main_v11) = W (Proc.devRef .tc main_v11) :=
  after_keeps 2 W

theorem hostOps1_uc : ∀ ops ∈ ([hostOps1] : List (List (HloOp τ sig (Elt F)))), ∀ op ∈ ops, op.bufs ⊆ ucRefs τ sig := by
  intro ops hops op hop
  simp only [List.mem_cons, List.mem_nil_iff, or_false] at hops
  subst hops
  exact sub_ucRefs op ((List.forall_iff_forall_mem.mp hostOps1_sub) op hop)

/-- Away from the two arrays the exit contents are the entry contents. -/
theorem Wexit_rest (c : Dev nD) :
    (unscopedRest (Ix := Unit) (Name := ℕ) (U := UR sig nD τ) (Lvl := ℕ) spec0 c (fun b => Wexit m c (Proc.devRef .tc b)) : sProp 𝕄)
      = unscopedRest spec0 c (V m c) := by
  unfold unscopedRest
  refine bigSep_congr fun b hb => ?_
  have e : Wexit m c (Proc.devRef .tc b) = V m c b :=
    withArrays_of_ne spec0 c (V0 m c) _ b fun w e =>
      (Finset.mem_sdiff.mp hb).2 (Finset.mem_image.mpr ⟨w, Finset.mem_univ _, e⟩)
  show (((c.tc : Thread nD τ).loc b) ↦{fullShare} Wexit m c (Proc.devRef .tc b) : sProp 𝕄) = _
  rw [e]

/-- Joining the two halves of the rows: the windows' arrays and the bypassing buffers at the exit are all the
    unscoped buffers held at the exit contents. -/
theorem exit_held (c : Dev nD) :
    iprop(((dats m 0 c).arrays fun w => (dats m 0 c).arrAt w cfg0.N) ∗ unscopedRestP Prefetch.none spec0 c (V m c))
      ⊢ (StableHlo.held (c.tc : Thread nD τ) (ucRefs τ sig) (Wexit m c) : sProp 𝕄) := by
  rw [← unscopedBufs_held (Ix := Unit) (Name := ℕ) (U := UR sig nD τ) (Lvl := ℕ) c (Wexit m c),
    unscopedBufs_split₀ cfgs 0 winFacts₀0.arr_unscoped c, arrays_three, arrBufs_two, unscopedRestP_none,
    arrAt_in0, arrAt_in1, Wexit_v5, Wexit_v11, Wexit_rest]
  iintro ⟨⟨HL, HR, H11⟩, HU⟩
  isplitr [HU]
  · isplitl [HL HR]
    · iapply (pointsTo_share (PosShare.mem_left_op_right fullShare)).2
      isplitl [HL]; · iexact HL
      iexact HR
    · iexact H11
  · iexact HU

/-- After the eight lines: all the unscoped buffers held at the lines' result are the windows' arrays as the region
    left them — the rows split in halves again — and the bypassing buffers at the lines' result. -/
theorem held_after (c : Dev nD) :
    (StableHlo.held (c.tc : Thread nD τ) (ucRefs τ sig) (StableHlo.after ([hostOps1] : List (List (HloOp τ sig (Elt F)))).flatten (Wexit m c)) : sProp 𝕄)
      ⊢ iprop(((dats m 0 c).arrays fun w => (dats m 0 c).arrAt w cfg0.N)
          ∗ unscopedRestP Prefetch.none spec0 c (afterTail₀ cfgs (dats m) 0 (V0 m) [hostOps1] c)) := by
  rw [← unscopedBufs_held (Ix := Unit) (Name := ℕ) (U := UR sig nD τ) (Lvl := ℕ) c,
    unscopedBufs_split₀ cfgs 0 winFacts₀0.arr_unscoped c, arrays_three, arrBufs_two, unscopedRestP_none,
    arrAt_in0, arrAt_in1, after_v5, after_v11, Wexit_v5, Wexit_v11]
  iintro ⟨⟨H5, H11⟩, HU⟩
  ihave H := (pointsTo_share (PosShare.mem_left_op_right fullShare)).1 $$ H5
  icases H with ⟨HL, HR⟩
  isplitr [HU]
  · isplitl [HL]; · iexact HL
    isplitl [HR]; · iexact HR
    iexact H11
  · iexact HU

/-- THE LINES AFTER THE REGION, from the region's exit with the rows in two halves: the halves are joined, the eight
    lines run over all the unscoped buffers, and the rows are split again. -/
theorem tail_lines (c : Dev nD) (Q' : PUnit → sProp 𝕄) :
    iprop((iprop(((dats m 0 c).arrays fun w => (dats m 0 c).arrAt w cfg0.N)
              ∗ unscopedRestP Prefetch.none spec0 c (afterTail₀ cfgs (dats m) 0 (V0 m) [hostOps1] c)) -∗ Q' ⟨⟩)
        ∗ boundary (c.tc : Thread nD τ) ∗ ((dats m 0 c).arrays fun w => (dats m 0 c).arrAt w cfg0.N)
        ∗ unscopedRestP Prefetch.none spec0 c (V m c))
      ⊢ wp frame (wpE (Pipeline.defs (fun q => (cfgs q).toPCfg (Val := Elt F)) defs₀) (Variants.lift Variants.none) (c.tc : Thread nD τ) none) Set.univ
          (chain (([hostOps1] : List (List (HloOp τ sig (Elt F)))).map StableHlo.seq)) Q' := by
  rw [← List.append_nil (([hostOps1] : List (List (HloOp τ sig (Elt F)))).map StableHlo.seq)]
  iintro ⟨Hk, Hb, HA, HZ⟩
  ihave Hh := (exit_held m c) $$ [HA HZ]
  · isplitl [HA]; · iexact HA
    iexact HZ
  iapply (wp_seqs_then (fun q => (cfgs q).toPCfg (Val := Elt F)) defs₀ Variants.none c (ucRefs τ sig) [] [hostOps1] hostOps1_uc sfx_fresh (Wexit m c)) $$ [Hb Hh]
  · isplitl [Hb]; · iexact Hb
    iexact Hh
  iintro Hb
  rw [chain_nil, wp_pure]
  imodintro
  iapply Hk
  icases Hb with ⟨-, H⟩
  iapply (held_after m c)
  iexact H

/-! ## The run and the frame -/

set_option backward.isDefEq.respectTransparency.types false in
/-- From any memory with zero counters, every weakly fair execution of @main on the TensorCore terminates, and every
    final state has each window's array at what the proof data compute — the rows as found, the column of sums at
    what the write-backs left — and every other unscoped buffer as the eight lines after the region leave it. -/
theorem run_main : θ_run defs (onTc (τ := τ) (main (F := F))) (s₀ m ρ)
    (FramePost cfgs (dats m) 0 (afterTail₀ cfgs (dats m) 0 (V0 m) [hostOps1])) := by
  classical
  refine θ_run_region_pf_tail (fun q => (cfgs q).toPCfg (Val := Elt F)) (fun q => (cfgs q).toPCfg_adm) (dats m) ()
    cellOf_inj (0 : Fin 1) winFacts₀0 (OwnSemFacts.none spec0) (PreFacts.none _) emb₁ defs₀ Variants.none m ρ main
    (fun _ => chain ([hostOps1].map StableHlo.seq)) (fun c => (body_obligation m c).loose)
    block_pos0 arr_whole0 stage_whole0 (fun _ _ => rfl)
    (G := fun _ => iprop(emp)) (u₀ := initOf (cells cfgs cellOf_inj) (launchToks cfgs cellOf_inj))
    (hu₀ := ?hu0)
    (V := V m) (hmain := hmain m Variants.none)
    (hsplit := zn_split m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (afterTail₀ cfgs (dats m) 0 (V0 m) [hostOps1] c))
    (hX := ?hX) (hin := ?hin) (hout := ?hout) (htail := tail_lines m)
    (QY := fun c s => ∀ b ∈ restRefsP sig Prefetch.none spec0, s.mem ((c.tc : Thread nD τ).loc b) = afterTail₀ cfgs (dats m) 0 (V0 m) [hostOps1] c b)
    (hY := ?hY) (hQ := ?hQ)
  case hu0 =>
    iintro Hu; imodintro
    isplitl [Hu]
    · iapply (show (ownU _ : sProp 𝕄) ⊢ BI.own (emb₁ (initOf (cells cfgs cellOf_inj) (launchToks cfgs cellOf_inj))) from .rfl); iexact Hu
    iapply (show (BI.emp : sProp 𝕄) ⊢ bigSep Finset.univ (fun _ : Dev nD => (BI.emp : sProp 𝕄)) from by rw [BI.bigSep_emp_const])
    iempintro
  case hX =>
    intro c
    iintro ⟨HU, -, -, -, Hp, -⟩; imodintro
    isplitl [Hp]; · iexists _; iexact Hp
    iexact HU
  case hin =>
    intro c
    refine (show _ ⊢ ΦA spec0 c from ?_).trans (hin m c)
    unfold ΦA
    iintro ⟨Hp, -, Hr⟩
    isplitl [Hr] <;> iassumption
  case hout =>
    intro c
    refine (hout m c).trans ?_
    rw [ownSems0_none]; unfold ΦA
    iintro ⟨Hr, Hp⟩
    isplitl [Hp]; · iexact Hp
    isplitr; · iempintro
    iexact Hr
  case hY =>
    intro c s'
    iintro ⟨-, HU, HSI⟩
    unfold unscopedRestP
    imodintro
    iapply (pointsTo_read_all (restRefsP sig Prefetch.none spec0) (fun b => (c.tc : Thread nD τ).loc b) (afterTail₀ cfgs (dats m) 0 (V0 m) [hostOps1] c) s')
    isplitl [HU] <;> iassumption
  case hQ =>
    intro s h c
    exact ⟨(h c).1, rest_of_restP Prefetch.none spec0 _ c (afterTail₀ cfgs (dats m) 0 (V0 m) [hostOps1] c) s (fun k => k.elim0) (h c).2.1 (h c).2.2⟩

/-- The lines after the region do not write the inputs, and the inputs are no window's array: they end as launched. -/
theorem after_arg (c : Dev nD) (b : Ref sig .tc) (hb : b = main_arg0 ∨ b = main_arg1) :
    afterTail₀ cfgs (dats m) 0 (V0 m) [hostOps1] c b = V m c b := by
  unfold afterTail₀
  rw [StableHlo.after_of_forall_not_mem (b := Proc.devRef .tc b) _ _ (List.forall_iff_forall_mem.mp (by
    rcases hb with rfl | rfl <;>
    · simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact withArrays_of_ne spec0 c (V0 m c) _ b (by rcases hb with rfl | rfl <;> decide)

/-- THE FRAME: the program runs to the end, faults nowhere, and leaves its two inputs as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (mem_restRefs_of main_arg0 (by decide) (by decide))).trans ((after_arg m c main_arg0 (.inl rfl)).trans (V_main_arg0 m c)),
     ((h c).2 main_arg1 (mem_restRefs_of main_arg1 (by decide) (by decide))).trans ((after_arg m c main_arg1 (.inr rfl)).trans (V_main_arg1 m c))⟩)
    (run_main m ρ)

end Cert.Kernel.Hand

end
-- ==== Proof.KI.Runs.lean ====
/-
  What the three runs of the kernel body and the frame share. @main is three stretches of host operations (the
  concatenation of the two inputs; the row norms; the normalised rows `zn`, the positive-pair products and their
  row sums), the region, and eight more host operations. The region reads ONE array, `zn`, through two windows —
  the query tile `(qi, 0)` and the key tile `(kj, 0)` of the 8 × 8 grid — and writes a column of 8192 sums through a
  third, one block of 1024 per query tile, written back at the last key tile only. A scratch column is carried from
  one key tile to the next: zeroed at `kj = 0`, added to at every point, copied to the output block at `kj = 7`.
  Here: the contents the region finds (`V`), @main around the region, that the later lines touch no window's array,
  each window's block, the two branch conditions in closed form over the 64 points, and where the output window is idle.
-/
import proofs.«180956_j86492051407493_1_alg».proof.Proof.Gen.KernelIdeal.Launch
import proofs.«180956_j86492051407493_1_alg».proof.Proof.Gen.KernelIdeal.Skeleton
import proofs.«180956_j86492051407493_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the three stretches of
    host operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host lines before it, the region, the host lines after it. It reduces to the region
    continued by the later lines, at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is neither `zn` nor the column
    of sums. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes the first input: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes the second input: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's current staging buffer holds its block at every point, fetched there or not (where it is not
    fetched the block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the key window, fetched at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first key tile" (`kj = 0`), as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last key tile" (`kj = 7`). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At the first key tile the body stores nothing into the output block, and the block is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- Nor at the middle key tiles. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At the last key tile it stores the whole block. -/
theorem liveAt0_2_C : ∀ t : Fin cfg0.N, ¬cond0_0 (grid0.coords t) → cond0_1 (grid0.coords t) → cfg0.idle 2 (grid0.coords t) = false := by decide +kernel

/-! ## The staging and scratch memrefs -/

/-- One staging buffer of the output window, through which its contents are stated (the choice does not matter). -/
abbrev VO0_2 : View sig .tc .vmem S1024x1 .f32 := (Memref.whole cc0_stg2_0 : Memref sig .tc .vmem S1024x1 .f32).view
/-- Each window's current staging memref at point `t`, spelled as the pipeline passes it, and its wholeness. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The scratch column: a whole scoped buffer of the kernel's own, passed beside the windows. -/
abbrev scM0_0 : Memref sig .tc .vmem S1024x1 .f32 := Memref.whole cc0_scratch0
/-- The same as a view: what the scratch holds is stated through it. -/
abbrev VS0_0 : View sig .tc .vmem S1024x1 .f32 := scM0_0.view

/-- The region's invariant before the first point: the scratch column owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The kernel body at a FIRST key tile (`kj = 0`, so not the last): the scratch column, found at any contents, is zeroed, the masked row sums of the tile are added to it, and the output block is left untouched. The pieces the scratch ends with are found by running the body; they are the witness of the run.
-/
import proofs.«180956_j86492051407493_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in the first-tile case, on whole staging memrefs: the two input tiles at their contents, the output
    block at contents handed back untouched, the scratch at anything; it runs to the continuation holding the inputs
    as they were and the scratch with its pieces written. -/
noncomputable def kernelRun0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .f32) (x1 : Vec F S1024x256 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RunB.lean ====
/-
  The kernel body at a MIDDLE key tile (`0 < kj < 7`): the masked row sums of the tile are added to the scratch column, found at what the point before left; the output block is left untouched.
-/
import proofs.«180956_j86492051407493_1_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in the middle-tile case: as the first-tile case, the scratch at the contents `xs0` the point before left. -/
noncomputable def kernelRun0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .f32) (x1 : Vec F S1024x256 .f32) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RunC.lean ====
/-
  The kernel body at the LAST key tile (`kj = 7`): the masked row sums of the tile are added to the scratch column, and the column is then copied whole into the output block, found at any contents.
-/
import proofs.«180956_j86492051407493_1_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in the last-tile case: the output block at anything, ending with its pieces written; the scratch at the
    contents `xs0` the point before left. -/
noncomputable def kernelRun0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .f32) (x1 : Vec F S1024x256 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Frame.lean ====
/-
  What the output block and the scratch column hold after the body at each of the 64 points, the pipeline's proof
  data, and the body obligation. The three cases of the body — first, middle, last key tile — were run one by one;
  here their results are threaded through the points: at a first key tile the scratch is reset and the tile's masked
  row sums added; at every later tile the sums are added to what the point before left; at the last tile the column
  is also copied into the output block, which is written back there and nowhere else. The array of normalised rows is
  read through two windows, so the proof data hold it at two half shares, the query window's and the key window's.
-/
import proofs.«180956_j86492051407493_1_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first key tile the body stores nothing into the output block: no pieces (a placeholder nothing consults, the block being neither written back nor read there). -/
def out0_A_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .f32) (x1 : Vec F S1024x256 .f32) : Vec F S1024x1 .f32 :=
  VO0_2.read (Elt F) (VO0_2.writes (Elt F) VO0_2.junk (kernelRun0_A c i arg2 harg2 arg3 harg3 arg4 harg4 arg5 harg5 hc0 hc1 x0 x1).1)

/-- The pieces the scratch column ends with in this case tile it, so they cover it. -/
theorem scover0_A_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .f32) (x1 : Vec F S1024x256 .f32) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What the first-tile case leaves in the scratch column: its pieces read back. -/
def sout0_A_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .f32) (x1 : Vec F S1024x256 .f32) : Vec F S1024x1 .f32 :=
  VS0_0.read (Elt F) (VS0_0.writes (Elt F) VS0_0.junk (kernelRun0_A c i arg2 harg2 arg3 harg3 arg4 harg4 arg5 harg5 hc0 hc1 x0 x1).2.1)

/-- At a middle key tile the body stores nothing into the output block either. -/
def out0_B_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .f32) (x1 : Vec F S1024x256 .f32) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

/-- The pieces the scratch column ends with in this case tile it, so they cover it. -/
theorem scover0_B_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .f32) (x1 : Vec F S1024x256 .f32) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- What the middle-tile case leaves in the scratch column. -/
def sout0_B_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x256 .f32) (x1 : Vec F S1024x256 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

/-- What the last-tile case leaves in the output block: its pieces read back. -/
def out0_C_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .f32) (x1 : Vec F S1024x256 .f32) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

/-- In the last-tile case the one store into the output block covers it. -/
theorem cover0_C_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .f32) (x1 : Vec F S1024x256 .f32) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- The pieces the scratch column ends with in this case tile it, so they cover it. -/
theorem scover0_C_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .f32) (x1 : Vec F S1024x256 .f32) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- What the last-tile case leaves in the scratch column. -/
def sout0_C_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .f32) (x1 : Vec F S1024x256 .f32) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- The accumulation. After the body at position `n`: the output block's staging buffer and the scratch column, by the
    case the closed forms select at `n`, the scratch of a later tile over what position `n - 1` left. No point is both
    a first and a last key tile. -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- `outsAt0` at a first key tile. -/
theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at a middle key tile: over what the point before left. -/
theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last key tile: over what the point before left. -/
theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch column at anything; afterwards at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outsAt0`; the invariant `PhiS`; nothing owed; the array of
    normalised rows at the left half share for the query window and the right half for the key window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem q0_eq (c : Dev nD) : (dats m 0 c).q 0 = fullShare.left := rfl
theorem q1_eq (c : Dev nD) : (dats m 0 c).q 1 = fullShare.right := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the closed forms say which case the point is in; the
    invariant hands the body the scratch column at what the point before left (at anything before the first point) and
    takes it back at this point's contents; the output block is handed back untouched except at a last key tile, where
    it is left at the case's pieces; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · by_cases h1 : t.val % 8 = 7
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.KI.Launch.lean ====
/-
  The launch of the one region when two of its windows read ONE array. The launch deals every unscoped buffer to the
  core whole, at the full share. The array of normalised rows is behind both the query window and the key window, so
  its full share is split in two halves, one for each window (`zn_split`); the column of sums goes whole to the output
  window. Both input windows end at the contents they started with, so after the region the two halves are joined
  again, the eight host operations that follow run over all the unscoped buffers — they read the column of sums and
  the positive-pair column and never touch the rows — and the array is split once more to state what every buffer
  ends holding (`tail_lines`). Around these two steps the run is the library's run of a region continued by host lines.
-/
import proofs.«180956_j86492051407493_1_alg».proof.Proof.KI.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-- The two array buffers behind the three windows. -/
theorem arr_image : Finset.univ.image (arrRef spec0) = insert main_v5 {main_v11} := by decide

/-- Both input windows end at the contents the region found. -/
theorem arrAt_in0 (c : Dev nD) (t : ℕ) : (dats m 0 c).arrAt 0 t = V m c main_v5 :=
  ((dats m 0 c).arrAt_in 0 rfl t).trans (A_eq m c 0)
theorem arrAt_in1 (c : Dev nD) (t : ℕ) : (dats m 0 c).arrAt 1 t = V m c main_v5 :=
  ((dats m 0 c).arrAt_in 1 rfl t).trans (A_eq m c 1)

/-- The windows' arrays, one by one: the rows at the left half share for the query window and at the right half for
    the key window, the column of sums whole for the output window. -/
theorem arrays_three (c : Dev nD) (A : (w : Fin cfg0.W) → Buf (Elt F) ((cfg0.win w).arr.view.loc (c.tc : Thread nD τ))) :
    ((dats m 0 c).arrays A : sProp 𝕄)
      = iprop((((c.tc : Thread nD τ).loc main_v5) ↦{fullShare.left} A 0)
          ∗ (((c.tc : Thread nD τ).loc main_v5) ↦{fullShare.right} A 1)
          ∗ (((c.tc : Thread nD τ).loc main_v11) ↦{fullShare} A 2)) := by
  unfold Dat.arrays
  rw [bigSep_W0]
  rw [(arr_whole0 0).set_eq_univ, (arr_whole0 2).set_eq_univ]
  rfl

/-- The buffers behind the arrays, each whole at the full share. -/
theorem arrBufs_two (c : Dev nD) (W : (b : Ref sig .tc) → Buf (Elt F) ((c.tc : Thread nD τ).loc b)) :
    (arrBufs spec0 c W : sProp 𝕄)
      = iprop((((c.tc : Thread nD τ).loc main_v5) ↦{fullShare} W main_v5) ∗ (((c.tc : Thread nD τ).loc main_v11) ↦{fullShare} W main_v11)) := by
  unfold arrBufs
  rw [arr_image, bigSep_insert (by decide), bigSep_singleton]
  rfl

/-- At the region's entry: the rows' full share is dealt in halves to the two windows that read them. -/
theorem zn_split (c : Dev nD) :
    (arrBufs spec0 c (V m c) : sProp 𝕄) ⊢ (dats m 0 c).arrays fun w => (dats m 0 c).arrAt w 0 := by
  rw [arrays_three, arrBufs_two]
  iintro ⟨H5, H11⟩
  ihave H := (pointsTo_share (PosShare.mem_left_op_right fullShare)).1 $$ H5
  icases H with ⟨HL, HR⟩
  isplitl [HL]; · iexact HL
  isplitl [HR]; · iexact HR
  iexact H11

/-! ## The lines after the region -/

/-- What the unscoped buffers hold when the region is left: the windows' arrays at what the write-backs left, every
    other buffer as the lines before the region left it. -/
abbrev Wexit (c : Dev nD) : Valuation τ sig (Elt F) :=
  withArrays spec0 c (V0 m c) fun w => (dats m 0 c).arrAt w cfg0.N

/-- There the rows are as the region found them, whichever of the two windows on them is asked. -/
theorem Wexit_v5 (c : Dev nD) : Wexit m c (Proc.devRef .tc main_v5) = V m c main_v5 := by
  show withArrays spec0 c (V0 m c) (fun w => (dats m 0 c).arrAt w cfg0.N) (Proc.devRef .tc main_v5) = _
  unfold withArrays
  have h : ∃ w', Proc.devRef .tc (arrRef spec0 w') = Proc.devRef (τ := τ) .tc main_v5 := ⟨0, rfl⟩
  rw [dif_pos h]
  suffices ∀ (w' : Fin 3) (e : Proc.devRef .tc (arrRef spec0 w') = Proc.devRef (τ := τ) .tc main_v5),
      cast (congrArg (fun b' : DevRef τ sig => b'.ty.Contents (Elt F)) e) ((dats m 0 c).arrAt w' cfg0.N) = V m c main_v5 from this _ h.choose_spec
  intro w' e
  fin_cases w'
  · exact arrAt_in0 m c _
  · exact arrAt_in1 m c _
  · exact absurd (Proc.devRef_injective _ e) (by decide)

/-- And the column of sums is what the output window's write-backs left. -/
theorem Wexit_v11 (c : Dev nD) : Wexit m c (Proc.devRef .tc main_v11) = (dats m 0 c).arrAt 2 cfg0.N := by
  show withArrays spec0 c (V0 m c) (fun w => (dats m 0 c).arrAt w cfg0.N) (Proc.devRef .tc main_v11) = _
  unfold withArrays
  have h : ∃ w', Proc.devRef .tc (arrRef spec0 w') = Proc.devRef (τ := τ) .tc main_v11 := ⟨2, rfl⟩
  rw [dif_pos h]
  suffices ∀ (w' : Fin 3) (e : Proc.devRef .tc (arrRef spec0 w') = Proc.devRef (τ := τ) .tc main_v11),
      cast (congrArg (fun b' : DevRef τ sig => b'.ty.Contents (Elt F)) e) ((dats m 0 c).arrAt w' cfg0.N) = (dats m 0 c).arrAt 2 cfg0.N from this _ h.choose_spec
  intro w' e
  fin_cases w'
  · exact absurd (Proc.devRef_injective _ e) (by decide)
  · exact absurd (Proc.devRef_injective _ e) (by decide)
  · rfl

/-- The eight lines after the region write neither array. -/
theorem after_keeps (w : Fin 3) (W : Valuation τ sig (Elt F)) :
    StableHlo.after ([hostOps1] : List (List (HloOp τ sig (Elt F)))).flatten W (Proc.devRef .tc (arrRef spec0 w)) = W (Proc.devRef .tc (arrRef spec0 w)) :=
  StableHlo.after_of_forall_not_mem _ _ fun op hop => by
    obtain ⟨ops, hops, hop⟩ := List.mem_flatten.mp hop
    exact sfx_keeps ops hops op hop w

theorem after_v5 (W : Valuation τ sig (Elt F)) :
    StableHlo.after ([hostOps1] : List (List (HloOp τ sig (Elt F)))).flatten W (Proc.devRef .tc main_v5) = W (Proc.devRef .tc main_v5) :=
  after_keeps 0 W
theorem after_v11 (W : Valuation τ sig (Elt F)) :
    StableHlo.after ([hostOps1] : List (List (HloOp τ sig (Elt F)))).flatten W (Proc.devRef .tc main_v11) = W (Proc.devRef .tc main_v11) :=
  after_keeps 2 W

theorem hostOps1_uc : ∀ ops ∈ ([hostOps1] : List (List (HloOp τ sig (Elt F)))), ∀ op ∈ ops, op.bufs ⊆ ucRefs τ sig := by
  intro ops hops op hop
  simp only [List.mem_cons, List.mem_nil_iff, or_false] at hops
  subst hops
  exact sub_ucRefs op ((List.forall_iff_forall_mem.mp hostOps1_sub) op hop)

/-- Away from the two arrays the exit contents are the entry contents. -/
theorem Wexit_rest (c : Dev nD) :
    (unscopedRest (Ix := Unit) (Name := ℕ) (U := UR sig nD τ) (Lvl := ℕ) spec0 c (fun b => Wexit m c (Proc.devRef .tc b)) : sProp 𝕄)
      = unscopedRest spec0 c (V m c) := by
  unfold unscopedRest
  refine bigSep_congr fun b hb => ?_
  have e : Wexit m c (Proc.devRef .tc b) = V m c b :=
    withArrays_of_ne spec0 c (V0 m c) _ b fun w e =>
      (Finset.mem_sdiff.mp hb).2 (Finset.mem_image.mpr ⟨w, Finset.mem_univ _, e⟩)
  show (((c.tc : Thread nD τ).loc b) ↦{fullShare} Wexit m c (Proc.devRef .tc b) : sProp 𝕄) = _
  rw [e]

/-- Joining the two halves of the rows: the windows' arrays and the bypassing buffers at the exit are all the
    unscoped buffers held at the exit contents. -/
theorem exit_held (c : Dev nD) :
    iprop(((dats m 0 c).arrays fun w => (dats m 0 c).arrAt w cfg0.N) ∗ unscopedRestP Prefetch.none spec0 c (V m c))
      ⊢ (StableHlo.held (c.tc : Thread nD τ) (ucRefs τ sig) (Wexit m c) : sProp 𝕄) := by
  rw [← unscopedBufs_held (Ix := Unit) (Name := ℕ) (U := UR sig nD τ) (Lvl := ℕ) c (Wexit m c),
    unscopedBufs_split₀ cfgs 0 winFacts₀0.arr_unscoped c, arrays_three, arrBufs_two, unscopedRestP_none,
    arrAt_in0, arrAt_in1, Wexit_v5, Wexit_v11, Wexit_rest]
  iintro ⟨⟨HL, HR, H11⟩, HU⟩
  isplitr [HU]
  · isplitl [HL HR]
    · iapply (pointsTo_share (PosShare.mem_left_op_right fullShare)).2
      isplitl [HL]; · iexact HL
      iexact HR
    · iexact H11
  · iexact HU

/-- After the eight lines: all the unscoped buffers held at the lines' result are the windows' arrays as the region
    left them — the rows split in halves again — and the bypassing buffers at the lines' result. -/
theorem held_after (c : Dev nD) :
    (StableHlo.held (c.tc : Thread nD τ) (ucRefs τ sig) (StableHlo.after ([hostOps1] : List (List (HloOp τ sig (Elt F)))).flatten (Wexit m c)) : sProp 𝕄)
      ⊢ iprop(((dats m 0 c).arrays fun w => (dats m 0 c).arrAt w cfg0.N)
          ∗ unscopedRestP Prefetch.none spec0 c (afterTail₀ cfgs (dats m) 0 (V0 m) [hostOps1] c)) := by
  rw [← unscopedBufs_held (Ix := Unit) (Name := ℕ) (U := UR sig nD τ) (Lvl := ℕ) c,
    unscopedBufs_split₀ cfgs 0 winFacts₀0.arr_unscoped c, arrays_three, arrBufs_two, unscopedRestP_none,
    arrAt_in0, arrAt_in1, after_v5, after_v11, Wexit_v5, Wexit_v11]
  iintro ⟨⟨H5, H11⟩, HU⟩
  ihave H := (pointsTo_share (PosShare.mem_left_op_right fullShare)).1 $$ H5
  icases H with ⟨HL, HR⟩
  isplitr [HU]
  · isplitl [HL]; · iexact HL
    isplitl [HR]; · iexact HR
    iexact H11
  · iexact HU

/-- THE LINES AFTER THE REGION, from the region's exit with the rows in two halves: the halves are joined, the eight
    lines run over all the unscoped buffers, and the rows are split again. -/
theorem tail_lines (c : Dev nD) (Q' : PUnit → sProp 𝕄) :
    iprop((iprop(((dats m 0 c).arrays fun w => (dats m 0 c).arrAt w cfg0.N)
              ∗ unscopedRestP Prefetch.none spec0 c (afterTail₀ cfgs (dats m) 0 (V0 m) [hostOps1] c)) -∗ Q' ⟨⟩)
        ∗ boundary (c.tc : Thread nD τ) ∗ ((dats m 0 c).arrays fun w => (dats m 0 c).arrAt w cfg0.N)
        ∗ unscopedRestP Prefetch.none spec0 c (V m c))
      ⊢ wp frame (wpE (Pipeline.defs (fun q => (cfgs q).toPCfg (Val := Elt F)) defs₀) (Variants.lift Variants.none) (c.tc : Thread nD τ) none) Set.univ
          (chain (([hostOps1] : List (List (HloOp τ sig (Elt F)))).map StableHlo.seq)) Q' := by
  rw [← List.append_nil (([hostOps1] : List (List (HloOp τ sig (Elt F)))).map StableHlo.seq)]
  iintro ⟨Hk, Hb, HA, HZ⟩
  ihave Hh := (exit_held m c) $$ [HA HZ]
  · isplitl [HA]; · iexact HA
    iexact HZ
  iapply (wp_seqs_then (fun q => (cfgs q).toPCfg (Val := Elt F)) defs₀ Variants.none c (ucRefs τ sig) [] [hostOps1] hostOps1_uc sfx_fresh (Wexit m c)) $$ [Hb Hh]
  · isplitl [Hb]; · iexact Hb
    iexact Hh
  iintro Hb
  rw [chain_nil, wp_pure]
  imodintro
  iapply Hk
  icases Hb with ⟨-, H⟩
  iapply (held_after m c)
  iexact H

/-! ## The run and the frame -/

set_option backward.isDefEq.respectTransparency.types false in
/-- From any memory with zero counters, every weakly fair execution of @main on the TensorCore terminates, and every
    final state has each window's array at what the proof data compute — the rows as found, the column of sums at
    what the write-backs left — and every other unscoped buffer as the eight lines after the region leave it. -/
theorem run_main : θ_run defs (onTc (τ := τ) (main (F := F))) (s₀ m ρ)
    (FramePost cfgs (dats m) 0 (afterTail₀ cfgs (dats m) 0 (V0 m) [hostOps1])) := by
  classical
  refine θ_run_region_pf_tail (fun q => (cfgs q).toPCfg (Val := Elt F)) (fun q => (cfgs q).toPCfg_adm) (dats m) ()
    cellOf_inj (0 : Fin 1) winFacts₀0 (OwnSemFacts.none spec0) (PreFacts.none _) emb₁ defs₀ Variants.none m ρ main
    (fun _ => chain ([hostOps1].map StableHlo.seq)) (fun c => (body_obligation m c).loose)
    block_pos0 arr_whole0 stage_whole0 (fun _ _ => rfl)
    (G := fun _ => iprop(emp)) (u₀ := initOf (cells cfgs cellOf_inj) (launchToks cfgs cellOf_inj))
    (hu₀ := ?hu0)
    (V := V m) (hmain := hmain m Variants.none)
    (hsplit := zn_split m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (afterTail₀ cfgs (dats m) 0 (V0 m) [hostOps1] c))
    (hX := ?hX) (hin := ?hin) (hout := ?hout) (htail := tail_lines m)
    (QY := fun c s => ∀ b ∈ restRefsP sig Prefetch.none spec0, s.mem ((c.tc : Thread nD τ).loc b) = afterTail₀ cfgs (dats m) 0 (V0 m) [hostOps1] c b)
    (hY := ?hY) (hQ := ?hQ)
  case hu0 =>
    iintro Hu; imodintro
    isplitl [Hu]
    · iapply (show (ownU _ : sProp 𝕄) ⊢ BI.own (emb₁ (initOf (cells cfgs cellOf_inj) (launchToks cfgs cellOf_inj))) from .rfl); iexact Hu
    iapply (show (BI.emp : sProp 𝕄) ⊢ bigSep Finset.univ (fun _ : Dev nD => (BI.emp : sProp 𝕄)) from by rw [BI.bigSep_emp_const])
    iempintro
  case hX =>
    intro c
    iintro ⟨HU, -, -, -, Hp, -⟩; imodintro
    isplitl [Hp]; · iexists _; iexact Hp
    iexact HU
  case hin =>
    intro c
    refine (show _ ⊢ ΦA spec0 c from ?_).trans (hin m c)
    unfold ΦA
    iintro ⟨Hp, -, Hr⟩
    isplitl [Hr] <;> iassumption
  case hout =>
    intro c
    refine (hout m c).trans ?_
    rw [ownSems0_none]; unfold ΦA
    iintro ⟨Hr, Hp⟩
    isplitl [Hp]; · iexact Hp
    isplitr; · iempintro
    iexact Hr
  case hY =>
    intro c s'
    iintro ⟨-, HU, HSI⟩
    unfold unscopedRestP
    imodintro
    iapply (pointsTo_read_all (restRefsP sig Prefetch.none spec0) (fun b => (c.tc : Thread nD τ).loc b) (afterTail₀ cfgs (dats m) 0 (V0 m) [hostOps1] c) s')
    isplitl [HU] <;> iassumption
  case hQ =>
    intro s h c
    exact ⟨(h c).1, rest_of_restP Prefetch.none spec0 _ c (afterTail₀ cfgs (dats m) 0 (V0 m) [hostOps1] c) s (fun k => k.elim0) (h c).2.1 (h c).2.2⟩

/-- The lines after the region do not write the inputs, and the inputs are no window's array: they end as launched. -/
theorem after_arg (c : Dev nD) (b : Ref sig .tc) (hb : b = main_arg0 ∨ b = main_arg1) :
    afterTail₀ cfgs (dats m) 0 (V0 m) [hostOps1] c b = V m c b := by
  unfold afterTail₀
  rw [StableHlo.after_of_forall_not_mem (b := Proc.devRef .tc b) _ _ (List.forall_iff_forall_mem.mp (by
    rcases hb with rfl | rfl <;>
    · simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact withArrays_of_ne spec0 c (V0 m c) _ b (by rcases hb with rfl | rfl <;> decide)

/-- THE FRAME: the program runs to the end, faults nowhere, and leaves its two inputs as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (mem_restRefs_of main_arg0 (by decide) (by decide))).trans ((after_arg m c main_arg0 (.inl rfl)).trans (V_main_arg0 m c)),
     ((h c).2 main_arg1 (mem_restRefs_of main_arg1 (by decide) (by decide))).trans ((after_arg m c main_arg1 (.inr rfl)).trans (V_main_arg1 m c))⟩)
    (run_main m ρ)

end Cert.KernelIdeal.Hand

end
-- ==== Proof.KI.Pieces.lean ====
/-
  What each case of the body leaves, as the body's two stored values. The first key tile zeroes the scratch column
  and then adds the tile's masked row sums to it, so it leaves the second value computed over the first; a later tile
  leaves the second value computed over what the point before left; the last tile also copies that column into the
  output block. The pieces found by running the body are read back: the latest store of a buffer covers it whole.
-/
import proofs.«180956_j86492051407493_1_alg».proof.Proof.KI.Frame
import Idealize.ShloMosaic.Lib.ValueIdx
import Idealize.ShloMosaic.Lib.Pipeline.Value

set_option maxRecDepth 16384

noncomputable section

open scoped BigOperators

namespace Cert.KernelIdeal.HandValue

open Idealize.ShloMosaic Idealize.ShloMosaic.TcCoe Idealize.ShloMosaic.ValueIdx
open Idealize.ShloMosaic.Tactic
open Idealize.SL Idealize.SL.Sem
open Idealize.ShloMosaic.Pipeline (Dat Cfg Window)
open Cert.KernelIdeal Cert.KernelIdeal.Gen Cert.KernelIdeal.Hand

variable {F : FTy → Type} [FloatOps F]

/-- The offsets of the rectangle through which the body loads and stores a whole buffer are both zero. -/
private theorem offs_zero : (![0, 0] : Fin 2 → Nat) = fun _ => 0 := funext fun a => by fin_cases a <;> rfl

/-- First key tile: the zero column is stored, read back whole, and the tile's masked row sums added to it; the later
    store covers the scratch, so the scratch ends at the second value over the first. -/
theorem sout_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i) (x0 x1 : Vec F S1024x256 .f32) :
    sout0_A_0 (F := F) c i arg2 harg2 arg3 harg3 arg4 harg4 arg5 harg5 hc0 hc1 x0 x1 = k0_pay2 (F := F) i x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) offs_zero]
  simp only [View.readCov_unit_zero (S := S1024x1) _ offs_zero, View.readAt_eq_ld, harg2.read_unread, harg3.read_unread,
    View.ld_unit_zero (S := S1024x256) offs_zero]

/-- Middle key tile: the one store covers the scratch; its value is computed from the two tiles and the scratch as
    found, each loaded whole. -/
theorem sout_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (x0 x1 : Vec F S1024x256 .f32) (xs0 : Vec F S1024x1 .f32) :
    sout0_B_0 (F := F) c i arg2 harg2 arg3 harg3 arg4 harg4 arg5 harg5 hc0 hc1 x0 x1 xs0 = k0_pay2 (F := F) i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero offs_zero]
  simp only [View.readAt_eq_ld, harg2.read_unread, harg3.read_unread, harg5.read_unread,
    View.ld_unit_zero (S := S1024x256) offs_zero, View.ld_unit_zero (S := S1024x1) offs_zero]

/-- Last key tile: the scratch is left as at a middle tile. -/
theorem sout_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 x1 : Vec F S1024x256 .f32) (xs0 : Vec F S1024x1 .f32) :
    sout0_C_0 (F := F) c i arg2 harg2 arg3 harg3 arg4 harg4 arg5 harg5 hc0 hc1 x0 x1 xs0 = k0_pay2 (F := F) i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero offs_zero]
  simp only [View.readAt_eq_ld, harg2.read_unread, harg3.read_unread, harg5.read_unread,
    View.ld_unit_zero (S := S1024x256) offs_zero, View.ld_unit_zero (S := S1024x1) offs_zero]

/-- Last key tile: the output block receives the scratch column read back whole after its update, the same value. -/
theorem out_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 x1 : Vec F S1024x256 .f32) (xs0 : Vec F S1024x1 .f32) :
    out0_C_2 (F := F) c i arg2 harg2 arg3 harg3 arg4 harg4 arg5 harg5 hc0 hc1 x0 x1 xs0 = k0_pay2 (F := F) i x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero offs_zero]
  simp only [View.readCov_unit_zero (S := S1024x1) _ offs_zero, View.readAt_eq_ld, harg2.read_unread, harg3.read_unread,
    harg5.read_unread, View.ld_unit_zero (S := S1024x256) offs_zero, View.ld_unit_zero (S := S1024x1) offs_zero]

end Cert.KernelIdeal.HandValue

end
-- ==== Proof.Spec.lean ====
/-
  The mathematics of the contrastive-loss denominator, with no program in sight.

  `Z` is the 8192 × 256 array of normalised rows (extended reals). The similarity of rows `R` and `C` is their dot
  product; a row's denominator is the sum over every OTHER row `C` of `exp (2 · sim R C)`, the diagonal term being
  zero. One program zeroes the diagonal after the exponential and multiplies by two, the other puts `-∞` on the
  diagonal before it and divides by one half: `exp ⊥ = 0`, and dividing by `1/2` is multiplying by `2` on every
  extended real, so the two terms are one. The sum over the 8192 columns is then regrouped into 8 tiles of 1024
  columns added one after the other to a running sum that starts at zero — addition of extended reals is
  commutative and associative, and zero is its identity, so nothing about finiteness is needed.
-/
import Idealize.ShloMosaic.PureOps.Ideal
import Idealize.ShloMosaic.Lib.ValueIdx

noncomputable section

open scoped BigOperators

namespace Cert.Spec

open Idealize.ShloMosaic Idealize.ShloMosaic.ValueIdx

/-- The normalised rows: 8192 rows of 256 extended reals. -/
abbrev Rows : Type := FVec Ideal (⟨2, ![8192, 256]⟩ : Shape) .f32

/-- Row `q · 1024 + r`: offset `r` inside tile `q` of the 8 tiles of 1024 rows. -/
def row (q : Fin 8) (r : Fin 1024) : Fin 8192 := ⟨q.val * 1024 + r.val, by omega⟩

/-- The dot product of rows `R` and `C`. -/
def sim (Z : Rows) (R C : Fin 8192) : EReal := ∑ d : Fin 256, Z (ix2 R d) * Z (ix2 C d)

/-- One term of a row's denominator: zero on the diagonal, `exp (2 · sim)` off it. -/
def term (Z : Rows) (R C : Fin 8192) : EReal :=
  if R = C then 0 else Ideal.exp (sim Z R C * ((2 : ℝ) : EReal))

/-- A row's denominator: the sum of its terms over all 8192 columns. -/
def den (Z : Rows) (R : Fin 8192) : EReal := ∑ C : Fin 8192, term Z R C

/-- The part of row `row q r`'s denominator that comes from key tile `k`. -/
def tile (Z : Rows) (q k : Fin 8) (r : Fin 1024) : EReal := ∑ c : Fin 1024, term Z (row q r) (row k c)

/-- The running sum for row `row q r` after the first `n` key tiles, added in order to a sum that starts at zero. -/
def acc (Z : Rows) (q : Fin 8) (r : Fin 1024) : (n : ℕ) → n ≤ 8 → EReal
  | 0, _ => 0
  | n + 1, h => acc Z q r n (Nat.le_of_succ_le h) + tile Z q ⟨n, h⟩ r

/-- The row a row is paired with: 4096 further on, cyclically. -/
def partner (R : Fin 8192) : Fin 8192 :=
  if h : R.val < 4096 then ⟨R.val + 4096, by omega⟩ else ⟨R.val - 4096, by omega⟩

/-- The positive-pair similarity of a row. -/
def pos (Z : Rows) (R : Fin 8192) : EReal := sim Z R (partner R)

/-- The dot product is symmetric: multiplication of extended reals commutes. -/
theorem sim_comm (Z : Rows) (R C : Fin 8192) : sim Z R C = sim Z C R := by
  unfold sim
  exact Finset.sum_congr rfl (fun d _ => mul_comm _ _)

/-- Every row is `row q r` for its tile and offset. -/
theorem row_surj (R : Fin 8192) : ∃ (q : Fin 8) (r : Fin 1024), R = row q r := by
  refine ⟨⟨R.val / 1024, by omega⟩, ⟨R.val % 1024, by omega⟩, ?_⟩
  apply Fin.ext
  simp only [row]
  omega

/-- `row` is injective in the pair. -/
theorem row_inj {q q' : Fin 8} {r r' : Fin 1024} (h : row q r = row q' r') : q = q' ∧ r = r' := by
  have h' := congrArg Fin.val h
  simp only [row] at h'
  constructor <;> apply Fin.ext <;> omega

/-- The pairs (tile, offset) are the rows, one for one. -/
private def rowEquiv : Fin 8 × Fin 1024 ≃ Fin 8192 :=
  Equiv.ofBijective (fun p => row p.1 p.2)
    ⟨fun p p' h => by
      obtain ⟨h1, h2⟩ := row_inj h
      exact Prod.ext h1 h2,
     fun R => by
      obtain ⟨q, r, h⟩ := row_surj R
      exact ⟨(q, r), h.symm⟩⟩

/-- The eight tiles partition the columns: the sum over all columns is the sum over tiles of the sums inside. -/
theorem den_eq_sum_tiles (Z : Rows) (q : Fin 8) (r : Fin 1024) :
    den Z (row q r) = ∑ k : Fin 8, tile Z q k r := by
  unfold den tile
  rw [← Fintype.sum_prod_type' (fun k c => term Z (row q r) (row k c))]
  exact (Equiv.sum_comp rowEquiv (fun C => term Z (row q r) C)).symm

/-- The running sum after all eight tiles is the row's denominator. -/
theorem acc_eight (Z : Rows) (q : Fin 8) (r : Fin 1024) : acc Z q r 8 le_rfl = den Z (row q r) := by
  rw [den_eq_sum_tiles, Fin.sum_univ_eight]
  simp only [acc, zero_add]
  rfl

/-- The literal `2.0`. -/
theorem ofBits_two : Ideal.ofBits .f32 0x40000000#32 = ((2 : ℝ) : EReal) := by
  simp [Ideal.ofBits, Ideal.ieee, -EReal.coe_mul]
  norm_num

/-- The literal `0.5`. -/
theorem ofBits_half : Ideal.ofBits .f32 0x3F000000#32 = ((1 / 2 : ℝ) : EReal) := by
  simp [Ideal.ofBits, Ideal.ieee, -EReal.coe_mul]
  norm_num

/-- The literal `-∞`. -/
theorem ofBits_neg_inf : Ideal.ofBits .f32 0xFF800000#32 = (⊥ : EReal) := by
  simp [Ideal.ofBits, Ideal.ieee]

/-- Masking with `-∞` before the exponential and dividing by one half is masking with zero after it and
    multiplying by two. -/
theorem term_eq_masked_div (Z : Rows) (R C : Fin 8192) :
    Ideal.exp (Ideal.div (if R = C then (⊥ : EReal) else sim Z R C) ((1 / 2 : ℝ) : EReal)) = term Z R C := by
  rw [Ideal.div_coe (by norm_num : (1 / 2 : ℝ) ≠ 0)]
  have h2 : (1 / (1 / 2 : ℝ)) = 2 := by norm_num
  rw [h2]
  unfold term
  by_cases h : R = C
  · rw [if_pos h, if_pos h, EReal.bot_mul_coe_of_pos (by norm_num), Ideal.exp_bot]
  · rw [if_neg h, if_neg h]

end Cert.Spec

end
-- ==== Proof.KI.ValueDefs.lean ====
/-
  Names for the kernel's value proof at the ideal instance: the normalised rows as the region finds them, and the
  query tile and key tile of a grid point of the 8 × 8 grid, numbered row-major.
-/
import proofs.«180956_j86492051407493_1_alg».proof.Proof.KI.Frame
import proofs.«180956_j86492051407493_1_alg».proof.Proof.Spec

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- The normalised rows `zn` as the region finds them on core `c`. -/
abbrev Zof (c : Dev nD) : Cert.Spec.Rows := V (F := Ideal) m c main_v5

/-- The grid has 64 points. -/
theorem N64 : cfg0.N = 64 := N_0

/-- The query tile of point `t`. -/
def qiOf (t : Fin cfg0.N) : Fin 8 := ⟨t.val / 8, by have h : t.val < 64 := lt_of_lt_of_eq t.isLt N64; omega⟩
/-- The key tile of point `t`. -/
def kjOf (t : Fin cfg0.N) : Fin 8 := ⟨t.val % 8, Nat.mod_lt _ (by norm_num)⟩

/-- The query window's block at point `t`, at its literal type. -/
abbrev qblk (c : Dev nD) (t : Fin cfg0.N) : Vec Ideal S1024x256 .f32 := iblk (F := Ideal) m c 0 t
/-- The key window's block at point `t`, at its literal type. -/
abbrev kblk (c : Dev nD) (t : Fin cfg0.N) : Vec Ideal S1024x256 .f32 := iblk (F := Ideal) m c 1 t
/-- The scratch column after point `t`. -/
abbrev scrAt (c : Dev nD) (t : Fin cfg0.N) : Vec Ideal S1024x1 .f32 := (outsAt0 (F := Ideal) m c t.val t.isLt).2
/-- The output block's staging buffer after point `t`. -/
abbrev outAt (c : Dev nD) (t : Fin cfg0.N) : Vec Ideal S1024x1 .f32 := (outsAt0 (F := Ideal) m c t.val t.isLt).1
/-- The column of sums after the region. -/
abbrev denArr (c : Dev nD) : Vec Ideal S8192x1 .f32 := (dats (F := Ideal) m 0 c).arrAt 2 cfg0.N

end Cert.KernelIdeal.HandValue

end
-- ==== Proof.KI.Blocks.lean ====
/-
  The two input blocks of a grid point read at an index: the query block of point `t` is rows
  `qi · 1024 … qi · 1024 + 1023` of the normalised rows and the key block rows `kj · 1024 …`, where `(qi, kj)` are
  the point's coordinates in the 8 × 8 grid, numbered row-major. A block's coordinate is index × size + the
  coordinate inside the block.
-/
import proofs.«180956_j86492051407493_1_alg».proof.Proof.KI.ValueDefs
import Idealize.ShloMosaic.Lib.Pipeline.Value

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- The query window's block index at point `t`: `t / 8` along the rows, `0` along the columns. -/
private theorem idx_q : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)

/-- The key window's block index at point `t`: `t % 8` along the rows, `0` along the columns. -/
private theorem idx_k : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- The first grid coordinate of point `t` is its query tile `t / 8`. -/
theorem coords_qi (t : Fin cfg0.N) : ((grid0.coords t) 0).val = (qiOf t).val :=
  (by decide +kernel : ∀ t : Fin grid0.N, ((grid0.coords t) 0).val = t.val / 8) t

/-- The second grid coordinate of point `t` is its key tile `t % 8`. -/
theorem coords_kj (t : Fin cfg0.N) : ((grid0.coords t) 1).val = (kjOf t).val :=
  (by decide +kernel : ∀ t : Fin grid0.N, ((grid0.coords t) 1).val = t.val % 8) t

/-- The query block of point `t` at `(r, d)` is the normalised rows at `(qi · 1024 + r, d)`: on each axis the block's
    element sits at block index × block size + its own coordinate. -/
theorem qblk_apply (c : Dev nD) (t : Fin cfg0.N) (r : Fin 1024) (d : Fin 256) :
    qblk m c t (ix2 r d) = Zof m c (ix2 (Cert.Spec.row (qiOf t) r) d) := by
  obtain ⟨e0, e1⟩ := idx_q t
  unfold qblk iblk
  rw [View.read_apply]
  show V (F := Ideal) m c main_v5 _ = V (F := Ideal) m c main_v5 _
  congr 1
  funext a
  apply Fin.ext
  match a with
  | ⟨0, _⟩ =>
    show win0_0.index t (0 : Fin 2) * 1024 + 1 * r.val = (qiOf t).val * 1024 + r.val
    rw [e0]
    show _ = t.val / 8 * 1024 + r.val
    omega
  | ⟨1, _⟩ =>
    show win0_0.index t (1 : Fin 2) * 256 + 1 * d.val = d.val
    rw [e1]
    omega

/-- The key block of point `t` at `(r, d)` is the normalised rows at `(kj · 1024 + r, d)`. -/
theorem kblk_apply (c : Dev nD) (t : Fin cfg0.N) (r : Fin 1024) (d : Fin 256) :
    kblk m c t (ix2 r d) = Zof m c (ix2 (Cert.Spec.row (kjOf t) r) d) := by
  obtain ⟨e0, e1⟩ := idx_k t
  unfold kblk iblk
  rw [View.read_apply]
  show V (F := Ideal) m c main_v5 _ = V (F := Ideal) m c main_v5 _
  congr 1
  funext a
  apply Fin.ext
  match a with
  | ⟨0, _⟩ =>
    show win0_1.index t (0 : Fin 2) * 1024 + 1 * r.val = (kjOf t).val * 1024 + r.val
    rw [e0]
    show _ = t.val % 8 * 1024 + r.val
    omega
  | ⟨1, _⟩ =>
    show win0_1.index t (1 : Fin 2) * 256 + 1 * d.val = d.val
    rw [e1]
    omega

end Cert.KernelIdeal.HandValue

end
-- ==== Proof.Payload.lean ====
/-
  The two values the kernel body stores, read at an index at the ideal instance. The first is a column of zeros.
  The second is the scratch column plus, row by row, the sum over the tile's 1024 columns of `exp (2 · q·k)`, the
  term being zero where the global row index `qi · 1024 + r` equals the global column index `kj · 1024 + c`; the
  casts to a narrower float format are the identity, the matrix product into a zero accumulator is the dot product,
  and the 32-bit index arithmetic does not wrap because every index is below 8192.
-/
import proofs.«180956_j86492051407493_1_alg».proof.Proof.Gen.KernelIdeal.Skeleton
import proofs.«180956_j86492051407493_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.TcCoe Idealize.ShloMosaic.ValueIdx

/-- A vector cast to a one-column matrix reads, at `(i, u)`, the operand at `i`, whatever the unit coordinate. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the lanes of a 1024 × 1024 block, read at row `r`: the sum over the columns of that row. -/
private theorem lane_sum (v : FVec Ideal S1024x1024 .f32) (hφ : FKind.Formats .f32)
    (hacc : (0x00000000#32 : BitVec FTy.f32.bits) = FKind.add.neutral .f32 hφ) (r : Fin 1024) :
    multiReduction .add [1] S1024 v 0x00000000#32 reduces_S1024x1024_S1024 hφ hacc (ix1 r)
      = ∑ c : Fin 1024, v (ix2 r c) := by
  refine (Ideal.multiReduction_add_single v _ reduces_S1024x1024_S1024 hφ hacc (ix1 r)).trans ?_
  refine Finset.sum_congr rfl fun c _ => congrArg v ?_
  funext a
  match a with
  | ⟨0, _⟩ => rfl
  | ⟨1, _⟩ => rfl

/-- The left operand's index at output `j` and contraction position `q`: its row is `j`'s row. -/
theorem lhs_dot_0 (j : S1024x1024.Idx) (q : dot_S1024x256_S256x1024_S1024x1024_1_0_0_1_n_n.contr.Idx) :
    (dot_S1024x256_S256x1024_S1024x1024_1_0_0_1_n_n.lhsIdx j q 0).val = (j 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
/-- Its column is the contraction position's one coordinate. -/
theorem lhs_dot_1 (j : S1024x1024.Idx) (q : dot_S1024x256_S256x1024_S1024x1024_1_0_0_1_n_n.contr.Idx) :
    (dot_S1024x256_S256x1024_S1024x1024_1_0_0_1_n_n.lhsIdx j q 1).val = (q ⟨0, by decide⟩).val :=
  dot_S1024x256_S256x1024_S1024x1024_1_0_0_1_n_n.lhsIdx_val_of_single rfl j q
/-- The right operand's index: its row is the contraction position's one coordinate. -/
theorem rhs_dot_0 (j : S1024x1024.Idx) (q : dot_S1024x256_S256x1024_S1024x1024_1_0_0_1_n_n.contr.Idx) :
    (dot_S1024x256_S256x1024_S1024x1024_1_0_0_1_n_n.rhsIdx j q 0).val = (q ⟨0, by decide⟩).val :=
  dot_S1024x256_S256x1024_S1024x1024_1_0_0_1_n_n.rhsIdx_val_of_single rfl j q
/-- Its column is `j`'s column. -/
theorem rhs_dot_1 (j : S1024x1024.Idx) (q : dot_S1024x256_S256x1024_S1024x1024_1_0_0_1_n_n.contr.Idx) :
    (dot_S1024x256_S256x1024_S1024x1024_1_0_0_1_n_n.rhsIdx j q 1).val = (j 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The matrix product into a zero accumulator, read at `(r, c)`: the dot product of row `r` of the left operand
    and column `c` of the right one. -/
private theorem matmul_entry (L : FVec Ideal S1024x256 .bf16) (R : FVec Ideal S256x1024 .bf16) (r c : Fin 1024) :
    matmul dot_S1024x256_S256x1024_S1024x1024_1_0_0_1_n_n none L R (constant S1024x1024 .f32 0x00000000#32) (ix2 r c)
      = ∑ d : Fin 256, L (ix2 r d) * R (ix2 d c) := by
  refine (Ideal.matmul_constant_zero_apply dot_S1024x256_S256x1024_S1024x1024_1_0_0_1_n_n none L R (ix2 r c)).trans ?_
  rw [← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 r c) ((ValueIdx.contrEquiv1 dot_S1024x256_S256x1024_S1024x1024_1_0_0_1_n_n 256 rfl rfl).symm k) = ix2 r k := funext fun a => Fin.ext (by
    match a with
    | ⟨0, _⟩ => exact lhs_dot_0 _ _
    | ⟨1, _⟩ => exact (lhs_dot_1 _ _).trans hk)
  have er : dot_S1024x256_S256x1024_S1024x1024_1_0_0_1_n_n.rhsIdx (ix2 r c) ((ValueIdx.contrEquiv1 dot_S1024x256_S256x1024_S1024x1024_1_0_0_1_n_n 256 rfl rfl).symm k) = ix2 k c := funext fun a => Fin.ext (by
    match a with
    | ⟨0, _⟩ => exact (rhs_dot_0 _ _).trans hk
    | ⟨1, _⟩ => exact rhs_dot_1 _ _)
  rw [el, er]

/-- Two naturals below `2 ^ 32` are equal when their 32-bit words are. -/
private theorem word_eq_iff {x y : ℕ} (hx : x < 2 ^ 32) (hy : y < 2 ^ 32) :
    BitVec.ofNat 32 x = BitVec.ofNat 32 y ↔ x = y := by
  constructor
  · intro h
    have h' := congrArg BitVec.toNat h
    simp only [BitVec.toNat_ofNat] at h'
    rwa [Nat.mod_eq_of_lt hx, Nat.mod_eq_of_lt hy] at h'
  · intro h; rw [h]

/-- The mask bit at `(r, c)`: set exactly where the global row index equals the global column index. The products
    and sums are below 8192, so the 32-bit arithmetic does not wrap. -/
private theorem mask_bit (i : grid0.Coords) (r c : Fin 1024) :
    cmpi .eq
        (addi (broadcast S1024x1024 (Scalar.muli (BitVec.ofNat 32 (i 0).val) 1024#32))
          (iota .tc S1024x1024 32 [0] iota_S1024x1024_d0_w32))
        (addi (broadcast S1024x1024 (Scalar.muli (BitVec.ofNat 32 (i 1).val) 1024#32))
          (iota .tc S1024x1024 32 [1] iota_S1024x1024_d1_w32)) (ix2 r c)
      = if (i 0).val * 1024 + r.val = (i 1).val * 1024 + c.val then 1#1 else 0#1 := by
  have h0 : (i 0).val < 8 := (i 0).isLt
  have h1 : (i 1).val < 8 := (i 1).isLt
  have hr := r.isLt
  have hc := c.isLt
  show IntOp.cmpi .eq
      (IntOp.addi (Scalar.muli (BitVec.ofNat 32 (i 0).val) 1024#32)
        (iota .tc S1024x1024 32 [0] iota_S1024x1024_d0_w32 (ix2 r c)))
      (IntOp.addi (Scalar.muli (BitVec.ofNat 32 (i 1).val) 1024#32)
        (iota .tc S1024x1024 32 [1] iota_S1024x1024_d1_w32 (ix2 r c))) = _
  rw [iota_single_apply, iota_single_apply]
  show BitVec.ofBool (BitVec.ofNat 32 (i 0).val * BitVec.ofNat 32 1024 + BitVec.ofNat 32 r.val
      == BitVec.ofNat 32 (i 1).val * BitVec.ofNat 32 1024 + BitVec.ofNat 32 c.val) = _
  rw [← BitVec.ofNat_mul, ← BitVec.ofNat_mul, ← BitVec.ofNat_add, ← BitVec.ofNat_add]
  by_cases h : (i 0).val * 1024 + r.val = (i 1).val * 1024 + c.val
  · rw [if_pos h, h, beq_self_eq_true]
    rfl
  · rw [if_neg h]
    have hne : ¬ BitVec.ofNat 32 ((i 0).val * 1024 + r.val) = BitVec.ofNat 32 ((i 1).val * 1024 + c.val) :=
      fun e => h ((word_eq_iff (by omega) (by omega)).mp e)
    rw [beq_eq_false_iff_ne.mpr hne]
    rfl

/-- The accumulated column at row `r`, for any witnesses of the shape facts its operations cite. -/
private theorem pay2_core (i : grid0.Coords) (q k : FVec Ideal S1024x256 .f32) (a : FVec Ideal S1024x1 .f32) (r : Fin 1024)
    (h1 : S1024x256.ShapeCasts S1024x256) (h2 : S1024x1.ShapeCasts S1024x1) (h3 : S1024.ShapeCasts S1024x1)
    (hb : FTy.bits .bf16 < FTy.bits .f32) (ht : S1024x256.Transposes [1, 0] S256x1024)
    (hφ : FKind.Formats .f32) (hacc : (0x00000000#32 : BitVec FTy.f32.bits) = FKind.add.neutral .f32 hφ) :
    shapeCast S1024x1
        (addf a
          (shapeCast S1024x1
            (multiReduction .add [1] S1024
              (select
                (cmpi .eq
                  (addi (broadcast S1024x1024 (Scalar.muli (BitVec.ofNat 32 (i 0).val) 1024#32))
                    (iota .tc S1024x1024 32 [0] iota_S1024x1024_d0_w32))
                  (addi (broadcast S1024x1024 (Scalar.muli (BitVec.ofNat 32 (i 1).val) 1024#32))
                    (iota .tc S1024x1024 32 [1] iota_S1024x1024_d1_w32)))
                (broadcast S1024x1024 (Scalar.ofBits (F := Ideal) .f32 0x00000000#32))
                (exp
                  (mulf
                    (matmul dot_S1024x256_S256x1024_S1024x1024_1_0_0_1_n_n none
                      (truncf .bf16 (shapeCast S1024x256 q h1) hb)
                      (transpose S256x1024 [1, 0] (truncf .bf16 (shapeCast S1024x256 k h1) hb) ht)
                      (constant S1024x1024 .f32 0x00000000#32))
                    (broadcast S1024x1024 (Scalar.ofBits (F := Ideal) .f32 0x40000000#32)))))
              0x00000000#32 reduces_S1024x1024_S1024 hφ hacc)
            h3))
        h2 (ix2 r (0 : Fin 1))
      = a (ix2 r (0 : Fin 1)) + ∑ c : Fin 1024,
          (if (i 0).val * 1024 + r.val = (i 1).val * 1024 + c.val then (0 : EReal)
           else Ideal.exp ((∑ d : Fin 256, q (ix2 r d) * k (ix2 c d)) * ((2 : ℝ) : EReal))) := by
  refine (congrFun (shapeCast_self _ h2) _).trans ?_
  refine (addf_apply _ _ _).trans ?_
  refine congrArg (a (ix2 r (0 : Fin 1)) + ·) ?_
  refine (shapeCast_a_a1_apply _ h3 r 0).trans ?_
  refine (lane_sum _ hφ hacc r).trans ?_
  refine Finset.sum_congr rfl fun c _ => ?_
  refine (select_apply _ _ _ _).trans ?_
  rw [mask_bit i r c]
  by_cases h : (i 0).val * 1024 + r.val = (i 1).val * 1024 + c.val
  · rw [if_pos h, if_pos h, select_one]
    exact Ideal.ofBits_zero_f32
  · rw [if_neg h, if_neg h, select_zero]
    show Ideal.exp (matmul dot_S1024x256_S256x1024_S1024x1024_1_0_0_1_n_n none
        (truncf .bf16 (shapeCast S1024x256 q h1) hb)
        (transpose S256x1024 [1, 0] (truncf .bf16 (shapeCast S1024x256 k h1) hb) ht)
        (constant S1024x1024 .f32 0x00000000#32) (ix2 r c) * Ideal.ofBits .f32 0x40000000#32) = _
    rw [Cert.Spec.ofBits_two, matmul_entry]
    refine congrArg (fun s => Ideal.exp (s * ((2 : ℝ) : EReal))) (Finset.sum_congr rfl fun d _ => ?_)
    rw [transpose_ix2_apply, shapeCast_self, shapeCast_self]
    rfl

/-- The reset value is zero everywhere. -/
theorem pay1_apply (r : Fin 1024) : k0_pay1 (F := Ideal) (ix2 r (0 : Fin 1)) = (0 : EReal) := by
  unfold k0_pay1
  show shapeCast S1024x1 (broadcast S1024x1 (Scalar.ofBits (F := Ideal) .f32 0x00000000#32)) shapeCasts_S1024x1_S1024x1
      (ix2 r (0 : Fin 1)) = 0
  rw [shapeCast_self]
  exact Ideal.ofBits_zero_f32

/-- The accumulated value at row `r` of the tile at grid point `(qi, kj)`: the scratch plus the masked sum. -/
theorem pay2_apply (i : grid0.Coords) (q k : Vec Ideal S1024x256 .f32) (a : Vec Ideal S1024x1 .f32) (r : Fin 1024) :
    k0_pay2 (F := Ideal) i q k a (ix2 r (0 : Fin 1))
      = a (ix2 r (0 : Fin 1)) + ∑ c : Fin 1024,
          (if (i 0).val * 1024 + r.val = (i 1).val * 1024 + c.val then (0 : EReal)
           else Ideal.exp ((∑ d : Fin 256, q (ix2 r d) * k (ix2 c d)) * ((2 : ℝ) : EReal))) := by
  unfold k0_pay2
  exact pay2_core i q k a r shapeCasts_S1024x256_S1024x256 shapeCasts_S1024x1_S1024x1 shapeCasts_S1024_S1024x1
    bitsLt_bf16_f32 transposes_S1024x256_p1_0_S256x1024 (.inl rfl) rfl

end Cert.KernelIdeal.Payload

end
-- ==== Proof.KI.Invariant.lean ====
/-
  The running sum. After the body at grid point `(qi, kj)` the scratch column holds, at row `r`, the sum of the
  first `kj + 1` key tiles' contributions to the denominator of row `qi · 1024 + r`; at the last key tile the output
  block holds the whole denominator. By induction on the point: a first key tile starts from zero, every later one
  adds its tile to what the point before left.
-/
import proofs.«180956_j86492051407493_1_alg».proof.Proof.KI.Pieces
import proofs.«180956_j86492051407493_1_alg».proof.Proof.KI.Blocks
import proofs.«180956_j86492051407493_1_alg».proof.Proof.Payload

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- The running sum does not depend on how its count is written. -/
private theorem acc_congr (Z : Cert.Spec.Rows) (q : Fin 8) (r : Fin 1024) {n n' : ℕ} (e : n = n') (h : n ≤ 8) (h' : n' ≤ 8) :
    Cert.Spec.acc Z q r n h = Cert.Spec.acc Z q r n' h' := by
  subst e
  rfl

/-- The running sum after one tile is zero plus that tile. -/
private theorem acc_first (Z : Cert.Spec.Rows) (q : Fin 8) (r : Fin 1024) (k : Fin 8) (hk : k.val = 0) :
    Cert.Spec.acc Z q r (k.val + 1) (Nat.succ_le_of_lt k.isLt) = 0 + Cert.Spec.tile Z q k r := by
  obtain ⟨kv, hlt⟩ := k
  dsimp only at hk
  subst hk
  rfl

/-- The running sum after tiles `0 … k` is the running sum after tiles `0 … k - 1` plus tile `k`. -/
private theorem acc_next (Z : Cert.Spec.Rows) (q : Fin 8) (r : Fin 1024) (k : Fin 8) (n : ℕ) (hn : n ≤ 8) (hk : n = k.val) :
    Cert.Spec.acc Z q r n hn + Cert.Spec.tile Z q k r = Cert.Spec.acc Z q r (k.val + 1) (Nat.succ_le_of_lt k.isLt) := by
  subst hk
  rfl

/-- The tile step: at point `t = (qi, kj)` the body's second stored value over a column `a` is, at row `r`, `a` plus
    key tile `kj`'s part of the denominator of row `qi · 1024 + r`. The two blocks are rows of the normalised array,
    so the inner dot product is the similarity of the two rows, and the mask's equation of global row numbers is the
    equation of the rows. -/
private theorem tile_step (c : Dev nD) (t : Fin cfg0.N) (a : Vec Ideal S1024x1 .f32) (r : Fin 1024) :
    k0_pay2 (F := Ideal) (grid0.coords t) (qblk m c t) (kblk m c t) a (ix2 r (0 : Fin 1))
      = a (ix2 r (0 : Fin 1)) + Cert.Spec.tile (Zof m c) (qiOf t) (kjOf t) r := by
  refine (Cert.KernelIdeal.Payload.pay2_apply (grid0.coords t) (qblk m c t) (kblk m c t) a r).trans ?_
  refine congrArg (fun s => a (ix2 r (0 : Fin 1)) + s) ?_
  unfold Cert.Spec.tile
  refine Finset.sum_congr rfl fun cc _ => ?_
  unfold Cert.Spec.term
  have hs : (∑ d : Fin 256, qblk m c t (ix2 r d) * kblk m c t (ix2 cc d))
      = Cert.Spec.sim (Zof m c) (Cert.Spec.row (qiOf t) r) (Cert.Spec.row (kjOf t) cc) := by
    unfold Cert.Spec.sim
    refine Finset.sum_congr rfl fun d _ => ?_
    rw [qblk_apply, kblk_apply]
  rw [hs, coords_qi, coords_kj]
  by_cases h : Cert.Spec.row (qiOf t) r = Cert.Spec.row (kjOf t) cc
  · rw [if_pos h, if_pos (show (qiOf t).val * 1024 + r.val = (kjOf t).val * 1024 + cc.val from congrArg Fin.val h)]
  · rw [if_neg h, if_neg (fun (e : (qiOf t).val * 1024 + r.val = (kjOf t).val * 1024 + cc.val) => h (Fin.ext e))]

/-- The scratch column after every point, by induction on the point's position. -/
private theorem scr_at_aux (c : Dev nD) (r : Fin 1024) : ∀ (k : ℕ) (t : Fin cfg0.N), t.val = k →
    scrAt m c t (ix2 r (0 : Fin 1)) = Cert.Spec.acc (Zof m c) (qiOf t) r ((kjOf t).val + 1) (Nat.succ_le_of_lt (kjOf t).isLt) := by
  intro k
  induction k using Nat.strong_induction_on with
  | _ k ih =>
    intro t hk
    have hN : t.val < 64 := lt_of_lt_of_eq t.isLt (N64)
    by_cases h0 : t.val % 8 = 0
    · have h1 : ¬t.val % 8 = 7 := by omega
      show (outsAt0 (F := Ideal) m c t.val t.isLt).2 (ix2 r (0 : Fin 1)) = _
      rw [outsAt0_A m c t h0 h1]; dsimp only
      refine (congrFun (sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (qblk m c t) (kblk m c t)) (ix2 r (0 : Fin 1))).trans ?_
      refine (tile_step m c t (k0_pay1 (F := Ideal)) r).trans ?_
      rw [Cert.KernelIdeal.Payload.pay1_apply]
      exact (acc_first (Zof m c) (qiOf t) r (kjOf t) h0).symm
    · have hz : t.val ≠ 0 := fun e => h0 (by rw [e])
      have hlt : t.val - 1 < cfg0.N := Nat.lt_of_le_of_lt (Nat.sub_le _ _) t.isLt
      have hprev : (outsAt0 (F := Ideal) m c (t.val - 1) hlt).2 (ix2 r (0 : Fin 1))
          = Cert.Spec.acc (Zof m c) (qiOf t) r (kjOf t).val (Nat.le_of_lt (kjOf t).isLt) := by
        refine (ih (t.val - 1) (by omega) ⟨t.val - 1, hlt⟩ rfl).trans ?_
        have hq : qiOf ⟨t.val - 1, hlt⟩ = qiOf t := Fin.ext (show (t.val - 1) / 8 = t.val / 8 by omega)
        rw [hq]
        exact acc_congr (Zof m c) (qiOf t) r (show (t.val - 1) % 8 + 1 = t.val % 8 by omega) _ _
      by_cases h1 : t.val % 8 = 7
      · show (outsAt0 (F := Ideal) m c t.val t.isLt).2 (ix2 r (0 : Fin 1)) = _
        rw [outsAt0_C m c t h0 h1]; dsimp only
        refine (congrFun (sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (qblk m c t) (kblk m c t) (outsAt0 (F := Ideal) m c (t.val - 1) hlt).2) (ix2 r (0 : Fin 1))).trans ?_
        refine (tile_step m c t (outsAt0 (F := Ideal) m c (t.val - 1) hlt).2 r).trans ?_
        rw [hprev]
        exact acc_next (Zof m c) (qiOf t) r (kjOf t) (kjOf t).val _ rfl
      · show (outsAt0 (F := Ideal) m c t.val t.isLt).2 (ix2 r (0 : Fin 1)) = _
        rw [outsAt0_B m c t h0 h1]; dsimp only
        refine (congrFun (sout_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (qblk m c t) (kblk m c t) (outsAt0 (F := Ideal) m c (t.val - 1) hlt).2) (ix2 r (0 : Fin 1))).trans ?_
        refine (tile_step m c t (outsAt0 (F := Ideal) m c (t.val - 1) hlt).2 r).trans ?_
        rw [hprev]
        exact acc_next (Zof m c) (qiOf t) r (kjOf t) (kjOf t).val _ rfl

theorem scr_at (c : Dev nD) (t : Fin cfg0.N) (r : Fin 1024) :
    scrAt m c t (ix2 r (0 : Fin 1)) = Cert.Spec.acc (Zof m c) (qiOf t) r ((kjOf t).val + 1) (Nat.succ_le_of_lt (kjOf t).isLt) :=
  scr_at_aux m c r t.val t rfl

theorem out_at (c : Dev nD) (t : Fin cfg0.N) (h7 : t.val % 8 = 7) (r : Fin 1024) :
    outAt m c t (ix2 r (0 : Fin 1)) = Cert.Spec.den (Zof m c) (Cert.Spec.row (qiOf t) r) := by
  have hN : t.val < 64 := lt_of_lt_of_eq t.isLt (N64)
  have h0 : ¬t.val % 8 = 0 := by omega
  have hlt : t.val - 1 < cfg0.N := Nat.lt_of_le_of_lt (Nat.sub_le _ _) t.isLt
  have hprev : (outsAt0 (F := Ideal) m c (t.val - 1) hlt).2 (ix2 r (0 : Fin 1))
      = Cert.Spec.acc (Zof m c) (qiOf t) r (kjOf t).val (Nat.le_of_lt (kjOf t).isLt) := by
    refine (scr_at m c ⟨t.val - 1, hlt⟩ r).trans ?_
    have hq : qiOf ⟨t.val - 1, hlt⟩ = qiOf t := Fin.ext (show (t.val - 1) / 8 = t.val / 8 by omega)
    rw [hq]
    exact acc_congr (Zof m c) (qiOf t) r (show (t.val - 1) % 8 + 1 = t.val % 8 by omega) _ _
  show (outsAt0 (F := Ideal) m c t.val t.isLt).1 (ix2 r (0 : Fin 1)) = _
  rw [outsAt0_C m c t h0 h7]; dsimp only
  refine (congrFun (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (qblk m c t) (kblk m c t) (outsAt0 (F := Ideal) m c (t.val - 1) hlt).2) (ix2 r (0 : Fin 1))).trans ?_
  refine (tile_step m c t (outsAt0 (F := Ideal) m c (t.val - 1) hlt).2 r).trans ?_
  rw [hprev]
  refine (acc_next (Zof m c) (qiOf t) r (kjOf t) (kjOf t).val _ rfl).trans ?_
  refine (acc_congr (Zof m c) (qiOf t) r (show (kjOf t).val + 1 = 8 from by show t.val % 8 + 1 = 8; omega) _ le_rfl).trans ?_
  exact Cert.Spec.acc_eight (Zof m c) (qiOf t) r

end Cert.KernelIdeal.HandValue

end
-- ==== Proof.KI.Final.lean ====
/-
  The column of sums after the region. The output window writes block `qi` back once, after the last key tile of
  query tile `qi`, holding the denominators of rows `qi · 1024 … qi · 1024 + 1023`; the eight blocks cover the column,
  so every entry is its row's denominator.
-/
import proofs.«180956_j86492051407493_1_alg».proof.Proof.KI.Invariant
import Idealize.ShloMosaic.Lib.Pipeline.Value

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- The column of denominators, one entry per row. -/
private abbrev denCol (c : Dev nD) : Vec Ideal S8192x1 .f32 :=
  fun j => Cert.Spec.den (Zof m c) ⟨(j 0).val, idx2_lt0 j⟩

/-- The output window's block index at a point: the query tile on the row axis, zero on the other. -/
private theorem out_index : ∀ t : Fin cfg0.N, win0_2.index t (0 : Fin 2) = t.val / 8 ∧ win0_2.index t (1 : Fin 2) = 0 :=
  (by decide +kernel : ∀ t : Fin grid0.N, _)

/-- What a point that writes back writes: its query tile's block of the column of denominators. Entry `r` of the
    block sits at row `(t / 8) · 1024 + r` of the column, which is row `r` of query tile `t / 8`. -/
private theorem flushed_eq (c : Dev nD) (t : Fin cfg0.N) (hf : (cfg0.win 2).flush t = true) :
    (dats (F := Ideal) m 0 c).flushed 2 t = ((cfg0.win 2).blk t).view.read (Elt Ideal) (denCol m c) := by
  have h7 : t.val % 8 = 7 := (flush0_2 t).mp hf
  obtain ⟨e0, e1⟩ := out_index t
  show (cfg0.win 2).cut (grid0.coords t) ((dats (F := Ideal) m 0 c).after 2 t) = _
  rw [after0_2]
  funext j
  rw [View.read_apply]
  obtain ⟨r, q, rfl⟩ : ∃ (r : Fin 1024) (q : Fin 1), j = ix2 r q := ⟨j 0, j 1, eq_ix2 j⟩
  obtain rfl : q = 0 := Subsingleton.elim _ _
  show outAt m c t (ix2 r (0 : Fin 1)) = denCol m c (((cfg0.win 2).blk t).view.emb (ix2 r (0 : Fin 1)))
  refine (out_at m c t h7 r).trans ?_
  refine congrArg (Cert.Spec.den (Zof m c)) (Fin.ext ?_)
  show (qiOf t).val * 1024 + r.val = win0_2.index t (0 : Fin 2) * 1024 + 1 * r.val
  rw [e0]
  show t.val / 8 * 1024 + r.val = t.val / 8 * 1024 + 1 * r.val
  omega

/-- An index of the column is in a point's block iff each coordinate is in the block's range on its axis. -/
private theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v11).slice (win0_2.rect t)).set ↔ _
  rw [View.set_slice_whole, Rect.mem_set_unit]
  exact Iff.rfl

/-- Every row `R` of the column is written back by the last point of its query tile, point `(R / 1024) · 8 + 7`. -/
private theorem cover (i : S8192x1.Idx) :
    ∃ t : Fin cfg0.N, (cfg0.win 2).flush t = true ∧ i ∈ ((cfg0.win 2).blk t).view.set := by
  have hi0 : (i 0).val < 8192 := idx2_lt0 i
  have hi1 : (i 1).val < 1 := idx2_lt1 i
  have hlt : (i 0).val / 1024 * 8 + 7 < cfg0.N := lt_of_lt_of_eq (by omega) N64.symm
  refine ⟨⟨(i 0).val / 1024 * 8 + 7, hlt⟩, (flush0_2 _).mpr (by show ((i 0).val / 1024 * 8 + 7) % 8 = 7; omega), ?_⟩
  obtain ⟨e0, e1⟩ := out_index ⟨(i 0).val / 1024 * 8 + 7, hlt⟩
  have e0' : win0_2.index ⟨(i 0).val / 1024 * 8 + 7, hlt⟩ (0 : Fin 2) = ((i 0).val / 1024 * 8 + 7) / 8 := e0
  rw [mem_blk]
  intro a
  match a with
  | ⟨0, _⟩ =>
    show win0_2.index ⟨(i 0).val / 1024 * 8 + 7, hlt⟩ (0 : Fin 2) * 1024 ≤ (i 0).val
      ∧ (i 0).val < win0_2.index ⟨(i 0).val / 1024 * 8 + 7, hlt⟩ (0 : Fin 2) * 1024 + 1024
    rw [e0']
    omega
  | ⟨1, _⟩ =>
    show win0_2.index ⟨(i 0).val / 1024 * 8 + 7, hlt⟩ (1 : Fin 2) * 1 ≤ (i 1).val
      ∧ (i 1).val < win0_2.index ⟨(i 0).val / 1024 * 8 + 7, hlt⟩ (1 : Fin 2) * 1 + 1
    rw [e1]
    omega

/-- So the column after the region is the column of denominators. -/
private theorem denArr_eq (c : Dev nD) : denArr m c = denCol m c :=
  (dats (F := Ideal) m 0 c).arrAt_eq_of_cover 2 (denCol m c) (flushed_eq m c) cover

theorem den_final (c : Dev nD) (R : Fin 8192) :
    denArr m c (ix2 R (0 : Fin 1)) = Cert.Spec.den (Zof m c) R := by
  rw [denArr_eq]

end Cert.KernelIdeal.HandValue

end
-- ==== Proof.RefValue.lean ====
/-
  The reference's two columns, read index by index. The positive pairs are two diagonals of the similarity matrix,
  gathered at `(i, i + 4096)` and `(i + 4096, i)`; the denominators are row sums of `exp` of the similarity matrix
  divided by one half, the diagonal set to `-∞` first. Both are stated over the normalised rows `zn`.
-/
import proofs.«180956_j86492051407493_1_alg».proof.Proof.Gen.ReferenceIdeal.Read
import proofs.«180956_j86492051407493_1_alg».proof.Proof.Spec
import Idealize.ShloMosaic.Lib.StableHlo.Predicate

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The reference's normalised rows, as the specification's array. -/
abbrev zn (x0 x1 : (⟨S4096x256, .f32⟩ : BufTy).Contents (Elt Ideal)) : Cert.Spec.Rows := val_main_v5 (F := Ideal) x0 x1

/-- An entry of the reference's similarity matrix is the dot product of the two rows. -/
theorem ref_sim (x0 x1 : (⟨S4096x256, .f32⟩ : BufTy).Contents (Elt Ideal)) (R C : Fin 8192) :
    val_main_v7 (F := Ideal) x0 x1 (ix2 R C) = Cert.Spec.sim (zn x0 x1) R C := by
  rw [val_main_v7_apply]
  unfold Cert.Spec.sim
  refine Finset.sum_congr rfl fun k _ => ?_
  rw [val_main_v6_apply]
  have el : lidx_main_v7 (ix2 R C) k = ix2 R k :=
    funext fun a => Fin.ext (by match a with | ⟨0, _⟩ => rfl | ⟨1, _⟩ => rfl)
  have er : idx_main_v6 (ridx_main_v7 (ix2 R C) k) = ix2 C k :=
    funext fun a => Fin.ext (by match a with | ⟨0, _⟩ => rfl | ⟨1, _⟩ => rfl)
  rw [el, er]

/-- The gather of single elements of a matrix read at position `p`: the matrix at the pair of start indices in row
    `p` of the index array, each read signed and clamped into its axis. -/
private theorem gather_pair_apply {α : Type} (x : S8192x8192.Idx → α) (idx : IVec S4096x2 32) (p : Fin 4096) :
    Host.gather gather_S8192x8192_S4096x2_S4096_n_01_n_n_01_1_11 x idx (ix1 p)
      = x (ix2 (⟨min (idx (ix2 p (0 : Fin 2))).toInt.toNat 8191, by omega⟩ : Fin 8192)
              (⟨min (idx (ix2 p (1 : Fin 2))).toInt.toNat 8191, by omega⟩ : Fin 8192)) := by
  unfold Host.gather
  congr 1
  funext a
  refine Fin.ext ?_
  match a with
  | ⟨0, _⟩ =>
    show gather_S8192x8192_S4096x2_S4096_n_01_n_n_01_1_11.start (ix1 p) idx (0 : Fin 2)
      + gather_S8192x8192_S4096x2_S4096_n_01_n_n_01_1_11.batchCoord (ix1 p) (0 : Fin 2)
      + gather_S8192x8192_S4096x2_S4096_n_01_n_n_01_1_11.offCoord (ix1 p) (0 : Fin 2) = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8192x8192_S4096x2_S4096_n_01_n_n_01_1_11.startIndexMap by decide)]
    have hsi : gather_S8192x8192_S4096x2_S4096_n_01_n_n_01_1_11.siIdx (ix1 p)
        ⟨List.idxOf (0 : Fin 2) gather_S8192x8192_S4096x2_S4096_n_01_n_n_01_1_11.startIndexMap,
          List.idxOf_lt_length_iff.2 (by decide)⟩ = ix2 p (0 : Fin 2) := by
      funext b; refine Fin.ext ?_
      match b with
      | ⟨0, _⟩ => rfl
      | ⟨1, _⟩ => rfl
    rw [hsi]
    rfl
  | ⟨1, _⟩ =>
    show gather_S8192x8192_S4096x2_S4096_n_01_n_n_01_1_11.start (ix1 p) idx (1 : Fin 2)
      + gather_S8192x8192_S4096x2_S4096_n_01_n_n_01_1_11.batchCoord (ix1 p) (1 : Fin 2)
      + gather_S8192x8192_S4096x2_S4096_n_01_n_n_01_1_11.offCoord (ix1 p) (1 : Fin 2) = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8192x8192_S4096x2_S4096_n_01_n_n_01_1_11.startIndexMap by decide)]
    have hsi : gather_S8192x8192_S4096x2_S4096_n_01_n_n_01_1_11.siIdx (ix1 p)
        ⟨List.idxOf (1 : Fin 2) gather_S8192x8192_S4096x2_S4096_n_01_n_n_01_1_11.startIndexMap,
          List.idxOf_lt_length_iff.2 (by decide)⟩ = ix2 p (1 : Fin 2) := by
      funext b; refine Fin.ext ?_
      match b with
      | ⟨0, _⟩ => rfl
      | ⟨1, _⟩ => rfl
    rw [hsi]
    rfl

/-- The same read with the two clamped start indices named by the caller. -/
private theorem gather_pair_at {α : Type} (x : S8192x8192.Idx → α) (idx : IVec S4096x2 32) (p : Fin 4096) (r c : Fin 8192)
    (h0 : min (idx (ix2 p (0 : Fin 2))).toInt.toNat 8191 = r.val)
    (h1 : min (idx (ix2 p (1 : Fin 2))).toInt.toNat 8191 = c.val) :
    Host.gather gather_S8192x8192_S4096x2_S4096_n_01_n_n_01_1_11 x idx (ix1 p) = x (ix2 r c) := by
  rw [gather_pair_apply]
  congr 1
  funext a
  match a with
  | ⟨0, _⟩ => exact Fin.ext h0
  | ⟨1, _⟩ => exact Fin.ext h1

/-- A small natural number as a 32-bit word is not negative. -/
private theorem slt_zero_ofNat (n : Nat) (h : n < 2 ^ 31) : IntOp.cmpi .slt (BitVec.ofNat 32 n) 0#32 = 0#1 := by
  apply eq_zero_of_ne_one
  intro hc
  have hn : (BitVec.ofNat 32 n).toNat < 2 ^ 31 := by
    rw [BitVec.toNat_ofNat, Nat.mod_eq_of_lt (by omega)]; exact h
  have := (StableHlo.Predicate.slt_iff_toNat hn (by decide)).mp hc
  exact absurd this (by simp)

/-- The wrap of a negative index, `select (w < 0) (w + 8192) w`, keeps a small natural number. -/
private theorem wrap_ofNat (n : Nat) (h : n < 2 ^ 31) :
    Scalar.select (IntOp.cmpi .slt (BitVec.ofNat 32 n) 0#32) (IntOp.addi (BitVec.ofNat 32 n) 8192#32) (BitVec.ofNat 32 n)
      = BitVec.ofNat 32 n := by
  rw [slt_zero_ofNat n h, select_zero]

/-- The offset `4096 + i` on words is the offset on numbers. -/
private theorem add_4096_ofNat (n : Nat) : IntOp.addi 4096#32 (BitVec.ofNat 32 n) = BitVec.ofNat 32 (4096 + n) := by
  unfold IntOp.addi; exact (BitVec.ofNat_add 4096 n).symm

/-- An index word in range, read signed and clamped into the axis, is its number. -/
private theorem clamp_ofNat (n : Nat) (h : n ≤ 8191) : min (BitVec.ofNat 32 n).toInt.toNat 8191 = n := by
  rw [StableHlo.Predicate.toInt_ofNat_small n (by omega), Int.toNat_natCast]
  exact Nat.min_eq_left h

/-- The first diagonal's index array: row `p` holds `(p, 4096 + p)`. -/
private theorem call1_col0 (p : Fin 4096) :
    val_main_call1_v16 (F := Ideal) (ix2 p (0 : Fin 2)) = BitVec.ofNat 32 p.val := by
  unfold val_main_call1_v16
  rw [concatenate_pair_apply_left (t := S4096x2) (s₁ := S4096x1) (s₂ := S4096x1) 1 _ _
    concatenates_S4096x1_S4096x1_S4096x2_d1 (ix2 p (0 : Fin 2)) rfl (ix2 p (0 : Fin 1))
    (fun b => match b with | ⟨0, _⟩ => rfl | ⟨1, _⟩ => rfl)]
  rw [val_main_call1_v14_apply, val_main_call1_v8_apply, val_main_call1_v5_apply, val_main_call1_v7_apply,
    val_main_call1_v0_apply, val_main_call1_v4_apply, val_main_call1_c_0_apply, val_main_call1_v6_apply,
    val_main_call1_c_1_apply]
  exact wrap_ofNat p.val (by omega)

/-- Its second column. -/
private theorem call1_col1 (p : Fin 4096) :
    val_main_call1_v16 (F := Ideal) (ix2 p (1 : Fin 2)) = BitVec.ofNat 32 (4096 + p.val) := by
  unfold val_main_call1_v16
  rw [concatenate_pair_apply_right (t := S4096x2) (s₁ := S4096x1) (s₂ := S4096x1) 1 _ _
    concatenates_S4096x1_S4096x1_S4096x2_d1 (ix2 p (1 : Fin 2)) rfl rfl (ix2 p (0 : Fin 1))
    (fun b hb => match b, hb with | ⟨0, _⟩, _ => rfl | ⟨1, _⟩, hb => (hb rfl).elim) rfl]
  rw [val_main_call1_v15_apply, val_main_call1_v13_apply, val_main_call1_v10_apply, val_main_call1_v12_apply,
    val_main_call1_v3_apply, val_main_call1_v2_apply, val_main_call1_c_apply, val_main_call1_v1_apply,
    val_main_call1_v9_apply, val_main_call1_c_2_apply, val_main_call1_v11_apply, val_main_call1_c_3_apply]
  show Scalar.select (IntOp.cmpi .slt (IntOp.addi 4096#32 (BitVec.ofNat 32 p.val)) 0#32)
    (IntOp.addi (IntOp.addi 4096#32 (BitVec.ofNat 32 p.val)) 8192#32) (IntOp.addi 4096#32 (BitVec.ofNat 32 p.val)) = _
  rw [add_4096_ofNat]
  exact wrap_ofNat (4096 + p.val) (by omega)

/-- The second diagonal's index array: row `p` holds `(4096 + p, p)`. -/
private theorem call2_col0 (p : Fin 4096) :
    val_main_call2_v16 (F := Ideal) (ix2 p (0 : Fin 2)) = BitVec.ofNat 32 (4096 + p.val) := by
  unfold val_main_call2_v16
  rw [concatenate_pair_apply_left (t := S4096x2) (s₁ := S4096x1) (s₂ := S4096x1) 1 _ _
    concatenates_S4096x1_S4096x1_S4096x2_d1 (ix2 p (0 : Fin 2)) rfl (ix2 p (0 : Fin 1))
    (fun b => match b with | ⟨0, _⟩ => rfl | ⟨1, _⟩ => rfl)]
  rw [val_main_call2_v14_apply, val_main_call2_v8_apply, val_main_call2_v5_apply, val_main_call2_v7_apply,
    val_main_call2_v3_apply, val_main_call2_v2_apply, val_main_call2_c_apply, val_main_call2_v1_apply,
    val_main_call2_v4_apply, val_main_call2_c_0_apply, val_main_call2_v6_apply, val_main_call2_c_1_apply]
  show Scalar.select (IntOp.cmpi .slt (IntOp.addi 4096#32 (BitVec.ofNat 32 p.val)) 0#32)
    (IntOp.addi (IntOp.addi 4096#32 (BitVec.ofNat 32 p.val)) 8192#32) (IntOp.addi 4096#32 (BitVec.ofNat 32 p.val)) = _
  rw [add_4096_ofNat]
  exact wrap_ofNat (4096 + p.val) (by omega)

/-- Its second column. -/
private theorem call2_col1 (p : Fin 4096) :
    val_main_call2_v16 (F := Ideal) (ix2 p (1 : Fin 2)) = BitVec.ofNat 32 p.val := by
  unfold val_main_call2_v16
  rw [concatenate_pair_apply_right (t := S4096x2) (s₁ := S4096x1) (s₂ := S4096x1) 1 _ _
    concatenates_S4096x1_S4096x1_S4096x2_d1 (ix2 p (1 : Fin 2)) rfl rfl (ix2 p (0 : Fin 1))
    (fun b hb => match b, hb with | ⟨0, _⟩, _ => rfl | ⟨1, _⟩, hb => (hb rfl).elim) rfl]
  rw [val_main_call2_v15_apply, val_main_call2_v13_apply, val_main_call2_v10_apply, val_main_call2_v12_apply,
    val_main_call2_v0_apply, val_main_call2_v9_apply, val_main_call2_c_2_apply, val_main_call2_v11_apply,
    val_main_call2_c_3_apply]
  exact wrap_ofNat p.val (by omega)

/-- The reference's positive-pair column. -/
theorem ref_pos (x0 x1 : (⟨S4096x256, .f32⟩ : BufTy).Contents (Elt Ideal)) (R : Fin 8192) :
    val_main_v10 (F := Ideal) x0 x1 (ix1 R) = Cert.Spec.pos (zn x0 x1) R := by
  unfold Cert.Spec.pos Cert.Spec.partner val_main_v10
  by_cases h : R.val < 4096
  · rw [dif_pos h]
    rw [concatenate_pair_apply_left (t := S8192) (s₁ := S4096) (s₂ := S4096) 0 _ _
      concatenates_S4096_S4096_S8192_d0 (ix1 R) rfl (ix1 (⟨R.val, h⟩ : Fin 4096))
      (fun b => match b with | ⟨0, _⟩ => rfl)]
    unfold val_main_v8
    rw [gather_pair_at (val_main_v7 (F := Ideal) x0 x1) (val_main_call1_v16 (F := Ideal)) ⟨R.val, h⟩ R
      ⟨R.val + 4096, by omega⟩
      (by rw [call1_col0]; exact clamp_ofNat _ (by have := R.isLt; omega))
      (by rw [call1_col1]; exact (clamp_ofNat _ (by show 4096 + R.val ≤ 8191; omega)).trans (Nat.add_comm _ _))]
    exact ref_sim x0 x1 R _
  · rw [dif_neg h]
    have hR := R.isLt
    rw [concatenate_pair_apply_right (t := S8192) (s₁ := S4096) (s₂ := S4096) 0 _ _
      concatenates_S4096_S4096_S8192_d0 (ix1 R) rfl rfl (ix1 (⟨R.val - 4096, by omega⟩ : Fin 4096))
      (fun b hb => match b, hb with | ⟨0, _⟩, hb => (hb rfl).elim)
      (by show R.val - 4096 + 4096 = R.val; omega)]
    unfold val_main_v9
    rw [gather_pair_at (val_main_v7 (F := Ideal) x0 x1) (val_main_call2_v16 (F := Ideal)) ⟨R.val - 4096, by omega⟩ R
      ⟨R.val - 4096, by omega⟩
      (by rw [call2_col0]; exact (clamp_ofNat _ (by show 4096 + (R.val - 4096) ≤ 8191; omega)).trans (by show 4096 + (R.val - 4096) = R.val; omega))
      (by rw [call2_col1]; exact clamp_ofNat _ (by show R.val - 4096 ≤ 8191; omega))]
    exact ref_sim x0 x1 R _

/-- The diagonal mask: the comparison of the two coordinate words is the bit one exactly on the diagonal. -/
private theorem diag_bit (R C : Fin 8192) :
    val_main_v15 (F := Ideal) (ix2 R C) = if R = C then 1#1 else 0#1 := by
  rw [val_main_v15_apply, val_main_v14_apply, val_main_v11_apply, val_main_v13_apply, val_main_c_apply,
    val_main_v12_apply]
  show IntOp.cmpi .eq (IntOp.addi (BitVec.ofNat 32 R.val) 0#32) (BitVec.ofNat 32 C.val) = _
  have h0 : IntOp.addi (BitVec.ofNat 32 R.val) 0#32 = BitVec.ofNat 32 R.val := by
    unfold IntOp.addi; exact BitVec.add_zero _
  rw [h0]
  by_cases h : R = C
  · rw [if_pos h, h]
    exact StableHlo.Predicate.cmpi_eq_iff.mpr rfl
  · rw [if_neg h]
    apply eq_zero_of_ne_one
    intro hc
    have he := StableHlo.Predicate.cmpi_eq_iff.mp hc
    have hn := congrArg BitVec.toNat he
    simp only [BitVec.toNat_ofNat] at hn
    have hR := R.isLt
    have hC := C.isLt
    apply h
    apply Fin.ext
    omega

/-- The reference's denominator column. -/
theorem ref_den (x0 x1 : (⟨S4096x256, .f32⟩ : BufTy).Contents (Elt Ideal)) (R : Fin 8192) :
    val_main_v20 (F := Ideal) x0 x1 (ix1 R) = Cert.Spec.den (zn x0 x1) R := by
  rw [val_main_v20_apply, val_main_cst_2_apply, Ideal.ofBits_def, Ideal.ofBits_zero_f32, zero_add]
  unfold Cert.Spec.den
  refine Finset.sum_congr rfl fun C _ => ?_
  have hi : idx_main_v20 (ix1 R) C = ix2 R C :=
    funext fun a => Fin.ext (by match a with | ⟨0, _⟩ => rfl | ⟨1, _⟩ => rfl)
  rw [hi, val_main_v19_apply, val_main_v18_apply, val_main_v16_apply, val_main_v17_apply, val_main_cst_1_apply,
    val_main_call3_v1_apply, val_main_call3_v0_apply, val_main_cst_0_apply, ref_sim, diag_bit,
    Ideal.hostUnary_exp_def, Ideal.hostDivf_def, Ideal.ofBits_def, Ideal.ofBits_def, Cert.Spec.ofBits_half,
    Cert.Spec.ofBits_neg_inf, ← Cert.Spec.term_eq_masked_div]
  by_cases h : R = C
  · rw [if_pos h, if_pos h, select_one]
  · rw [if_neg h, if_neg h, select_zero]

end Cert.ReferenceIdeal.RefValue

end
-- ==== Proof.KI.Prefix.lean ====
/-
  What the host operations before the region compute, read at an index: the positive-pair column is the row sum of the
  products of the first 4096 normalised rows with the last 4096, repeated twice — the dot product of each row with
  its partner, whichever of the two comes first, because multiplication commutes —, and the normalised rows are the
  same function of the two inputs that the reference computes.
-/
import proofs.«180956_j86492051407493_1_alg».proof.Proof.KI.ValueDefs
import proofs.«180956_j86492051407493_1_alg».proof.Proof.RefValue
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- The row sums of the products of the first 4096 rows of an array with its last 4096. -/
private def half (Z : Vec Ideal S8192x256 .f32) : Vec Ideal S4096 .f32 :=
  Host.reduceAdd (F := Ideal)
    (mulf (extractStridedSlice S4096x256 ![0, 0] Z slices_S8192x256_S4096x256_0_0)
      (extractStridedSlice S4096x256 ![4096, 0] Z slices_S8192x256_S4096x256_4096_0))
    (constant (F := Ideal) S_ .f32 0x00000000#32) reducesTo_S4096x256_S4096_d1 h_S_

/-- The positive-pair column the host operations leave is those row sums, twice. -/
private theorem v10_eq (c : Dev nD) :
    (V (F := Ideal) m c main_v10 : Vec Ideal S8192 .f32)
      = concatenate S8192 0 [⟨S4096, half (V (F := Ideal) m c main_v5)⟩, ⟨S4096, half (V (F := Ideal) m c main_v5)⟩]
          concatenates_S4096_S4096_S8192_d0 := by
  unfold half
  dsimp only [V, V0]
  simp only [hostOps0, hostOps0_1, hostOps0_2, List.flatten_cons, List.flatten_nil, List.append_nil, List.cons_append,
    List.nil_append]
  after_results

/-- The sum along the rows of a 4096 × 256 array from zero, read at a row: the sum of the row's 256 entries. -/
private theorem rowsum_apply (y0 : Vec Ideal S4096x256 .f32) (p : Fin 4096) :
    Host.reduceAdd (F := Ideal) y0 (constant (F := Ideal) S_ .f32 0x00000000#32) reducesTo_S4096x256_S4096_d1 h_S_ (ix1 p)
      = ∑ k : Fin 256, y0 (ix2 p k) := by
  simp only [Host.reduceAdd, Ideal.hostReduceAdd_def]
  rw [Ideal.hostReduceAdd_single reducesTo_S4096x256_S4096_d1 (by decide)]
  rw [constant_apply, Ideal.ofBits_zero_f32, zero_add]
  refine Finset.sum_congr rfl fun k _ => ?_
  exact congrArg y0 (funext fun a => Fin.ext (by match a with | ⟨0, _⟩ => rfl | ⟨1, _⟩ => rfl))

/-- A row sum: the dot product of a row of the first half with the row 4096 further on. -/
private theorem half_apply (Z : Vec Ideal S8192x256 .f32) (p : Fin 4096) (r r' : Fin 8192) (hr : r.val = 0 + p.val)
    (hr' : r'.val = 4096 + p.val) :
    half Z (ix1 p) = ∑ k : Fin 256, Z (ix2 r k) * Z (ix2 r' k) := by
  unfold half
  rw [rowsum_apply]
  refine Finset.sum_congr rfl fun k _ => ?_
  refine (mulf_apply _ _ _).trans ?_
  refine congrArg₂ (· * ·) ?_ ?_
  · exact extractStridedSlice_apply _ Z slices_S8192x256_S4096x256_0_0 (ix2 p k) (ix2 r k) (fun a => by
      match a with
      | ⟨0, _⟩ => exact hr
      | ⟨1, _⟩ => exact (Nat.zero_add _).symm)
  · exact extractStridedSlice_apply _ Z slices_S8192x256_S4096x256_4096_0 (ix2 p k) (ix2 r' k) (fun a => by
      match a with
      | ⟨0, _⟩ => exact hr'
      | ⟨1, _⟩ => exact (Nat.zero_add _).symm)

/-- The positive-pair column the region's caller holds: each row's dot product with its partner. -/
theorem pos_K (c : Dev nD) (R : Fin 8192) :
    (V (F := Ideal) m c main_v10 : Vec Ideal S8192 .f32) (ix1 R) = Cert.Spec.pos (Zof m c) R := by
  rw [v10_eq]
  unfold Cert.Spec.pos Cert.Spec.partner
  have hR := R.isLt
  by_cases h : R.val < 4096
  · rw [dif_pos h]
    rw [concatenate_pair_apply_left (t := S8192) (s₁ := S4096) (s₂ := S4096) 0 _ _
      concatenates_S4096_S4096_S8192_d0 (ix1 R) rfl (ix1 (⟨R.val, h⟩ : Fin 4096))
      (fun b => match b with | ⟨0, _⟩ => rfl)]
    rw [half_apply _ ⟨R.val, h⟩ R ⟨R.val + 4096, by omega⟩ (Nat.zero_add _).symm (Nat.add_comm _ _)]
    rfl
  · rw [dif_neg h]
    rw [concatenate_pair_apply_right (t := S8192) (s₁ := S4096) (s₂ := S4096) 0 _ _
      concatenates_S4096_S4096_S8192_d0 (ix1 R) rfl rfl (ix1 (⟨R.val - 4096, by omega⟩ : Fin 4096))
      (fun b hb => match b, hb with | ⟨0, _⟩, hb => (hb rfl).elim)
      (by show R.val - 4096 + 4096 = R.val; omega)]
    rw [half_apply _ ⟨R.val - 4096, by omega⟩ ⟨R.val - 4096, by omega⟩ R (Nat.zero_add _).symm
      (by show R.val = 4096 + (R.val - 4096); omega)]
    rw [Cert.Spec.sim_comm]
    rfl

/-- The normalised rows the region finds are the reference's. -/
theorem zn_K (c : Dev nD) :
    Zof m c = Cert.ReferenceIdeal.RefValue.zn (m ((c.tc : Thread nD τ).loc main_arg0)) (m ((c.tc : Thread nD τ).loc main_arg1)) := by
  show V (F := Ideal) m c main_v5 = _
  dsimp only [V, V0]
  simp only [hostOps0, hostOps0_1, hostOps0_2, List.flatten_cons, List.flatten_nil, List.append_nil, List.cons_append,
    List.nil_append]
  after_results
  simp only [StableHlo.TRef.ofBuf, StableHlo.TRef.toBuf, cast_eq]
  rfl

end Cert.KernelIdeal.HandValue

end
-- ==== Proof.Loss.lean ====
/-
  The loss as a function of the two columns, with no program in sight: minus the mean over the 8192 rows of the
  logarithm of the quotient of the positive-pair similarity by the denominator. Both programs end with these same
  five operations; only the two columns are computed differently.
-/
import Idealize.ShloMosaic.PureOps.Ideal
import Idealize.ShloMosaic.Lib.ValueIdx

noncomputable section

open scoped BigOperators

namespace Cert.Loss

open Idealize.ShloMosaic

/-- Minus the mean of `log (p / d)` over the 8192 rows: a sum started at zero, divided by the literal `8192.0`. -/
def loss (p d : Fin 8192 → EReal) : EReal :=
  -(Ideal.div ((0 : EReal) + ∑ R : Fin 8192, Ideal.log (Ideal.div (p R) (d R))) (Ideal.ofBits .f32 0x46000000#32))

/-- Equal columns give equal losses. -/
theorem loss_congr {p p' d d' : Fin 8192 → EReal} (hp : ∀ R, p R = p' R) (hd : ∀ R, d R = d' R) : loss p d = loss p' d' := by
  rw [show p = p' from funext hp, show d = d' from funext hd]

end Cert.Loss

end
-- ==== Proof.KI.ResultK.lean ====
/-
  The kernel program's result: the eight host operations after the region compute the loss of the positive-pair
  column and the column of sums — reshape, quotient, logarithm, sum from zero, division by 8192, negation.
-/
import proofs.«180956_j86492051407493_1_alg».proof.Proof.KI.ValueDefs
import proofs.«180956_j86492051407493_1_alg».proof.Proof.KI.Launch
import proofs.«180956_j86492051407493_1_alg».proof.Proof.Loss
import Idealize.ShloMosaic.Lib.Pipeline.Value
import Idealize.ShloMosaic.Lib.Pipeline.FrameSuffix
import Idealize.ShloMosaic.Lib.StableHlo.Run
import Idealize.ShloMosaic.PureOps.Ideal.Laws
import Idealize.ShloMosaic.Lib.ValueIdxRank1

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- Dropping the unit axis of a column: entry `R` of the result is entry `(R, 0)` of the column. -/
private theorem reshape_col (d : Vec Ideal S8192x1 .f32) (R : Fin 8192) :
    shapeCast S8192 d shapeCasts_S8192x1_S8192 (ix1 R) = d (ix2 R (0 : Fin 1)) :=
  shapeCast_apply d shapeCasts_S8192x1_S8192 (ix1 R) (ix2 R (0 : Fin 1)) (by
    rw [Shape.rowMajor_val_two, Shape.rowMajor_val_one]; show R.val * 1 + 0 = R.val; omega)

/-- The eight operations read at the one index, over any two columns: minus the quotient, by the literal 8192, of
    zero plus the sum over the 8192 rows of the logarithm of the quotient of the first column's entry by the second
    column's — the second read through the reshape that drops its unit axis. -/
private theorem tail_read (p : Vec Ideal S8192 .f32) (d : Vec Ideal S8192x1 .f32) :
    Host.negf (F := Ideal) (Host.divf (F := Ideal) (Host.reduceAdd (F := Ideal) (Host.log (F := Ideal) (Host.divf (F := Ideal) p (shapeCast S8192 d shapeCasts_S8192x1_S8192)))
        (constant (F := Ideal) S_ .f32 0x00000000#32) reducesTo_S8192_S_d0 h_S_) (constant (F := Ideal) S_ .f32 0x46000000#32)) ix0
      = Cert.Loss.loss (fun R => p (ix1 R)) (fun R => d (ix2 R (0 : Fin 1))) := by
  unfold Cert.Loss.loss
  show -(Ideal.div (Ideal.hostReduceAdd reducesTo_S8192_S_d0 (Host.log (F := Ideal) (Host.divf (F := Ideal) p (shapeCast S8192 d shapeCasts_S8192x1_S8192)))
      (Ideal.ofBits .f32 0x00000000#32) ix0) (Ideal.ofBits .f32 0x46000000#32)) = _
  rw [Ideal.hostReduceAdd_total reducesTo_S8192_S_d0 (fun b => b.elim0), Ideal.ofBits_zero_f32]
  refine congrArg (fun x => -(Ideal.div ((0 : EReal) + x) (Ideal.ofBits .f32 0x46000000#32))) ?_
  refine Fintype.sum_equiv idxEquiv1 _ _ fun j => ?_
  obtain ⟨R, rfl⟩ : ∃ R, j = ix1 R := ⟨j 0, eq_ix1 j⟩
  show Ideal.log (Ideal.div (p (ix1 R)) (shapeCast S8192 d shapeCasts_S8192x1_S8192 (ix1 R))) = Ideal.log (Ideal.div (p (ix1 R)) (d (ix2 R (0 : Fin 1))))
  rw [reshape_col]

/-- The scalar the program ends with is the loss of the positive-pair column and the column of sums: after the region
    the column of sums is what the output window's write-backs left, the positive-pair column is as the region found
    it, and the eight operations that follow are the reshape of the column and the five operations of the loss. -/
theorem result_K (c : Dev nD) :
    (Pipeline.afterTail₀ cfgs (dats (F := Ideal) m) 0 (V0 m) [hostOps1] c main_v17 : Vec Ideal S_ .f32) ix0
      = Cert.Loss.loss (fun R => (V (F := Ideal) m c main_v10 : Vec Ideal S8192 .f32) (ix1 R)) (fun R => denArr m c (ix2 R (0 : Fin 1))) := by
  unfold Pipeline.afterTail₀
  simp only [List.flatten_cons, List.flatten_nil, List.append_nil]
  after_results
  have h11 : Pipeline.withArrays (cfgs 0).spec c (V0 m c) (fun w => (dats m 0 c).arrAt w (cfgs 0).N) (Proc.devRef .tc main_v11) = denArr m c :=
    Wexit_v11 m c
  have h10 : Pipeline.withArrays (cfgs 0).spec c (V0 m c) (fun w => (dats m 0 c).arrAt w (cfgs 0).N) (Proc.devRef .tc main_v10) = V m c main_v10 :=
    Pipeline.withArrays_of_ne spec0 c (V0 m c) _ main_v10 (by decide)
  rw [h11, h10]
  exact tail_read (V m c main_v10) (denArr m c)

end Cert.KernelIdeal.HandValue

end
-- ==== Proof.RefResult.lean ====
/-
  The reference program's result: its last five operations compute the loss of its positive-pair column and its
  denominator column.
-/
import proofs.«180956_j86492051407493_1_alg».proof.Proof.RefValue
import proofs.«180956_j86492051407493_1_alg».proof.Proof.Loss

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) :=
  (Equiv.sum_comp
    (⟨fun a => ix1 a, fun j => j 0, fun _ => rfl, fun j => (eq_ix1 j).symm⟩ : Fin n ≃ (⟨1, ![n]⟩ : Shape).Idx) f).symm

theorem result_R (x0 x1 : (⟨S4096x256, .f32⟩ : BufTy).Contents (Elt Ideal)) :
    val_main_v25 (F := Ideal) x0 x1 ix0
      = Cert.Loss.loss (fun R => val_main_v10 (F := Ideal) x0 x1 (ix1 R)) (fun R => val_main_v20 (F := Ideal) x0 x1 (ix1 R)) := by
  rw [val_main_v25_apply, val_main_v24_apply, val_main_v23_apply, val_main_cst_4_apply, val_main_cst_3_apply, sum_idx1]
  simp only [val_main_v22_apply, val_main_v21_apply, Ideal.hostNegf_def, Ideal.negf_def, Ideal.hostDivf_def,
    Ideal.hostUnary_log_def, Ideal.ofBits_def, Ideal.ofBits_zero_f32]
  rfl

end Cert.ReferenceIdeal.RefValue

end
-- ==== Proof.Bridge.lean ====
/-
  The two programs compute one number. The kernel program's result is the loss of its positive-pair column and its
  column of sums; the reference's is the loss of its two columns. Row by row both positive-pair columns are the dot
  product of a normalised row with its partner, both denominator columns the sum over the other rows of
  `exp (2 · similarity)`, and both programs normalise the rows the same way: so the two losses are the loss of equal
  columns.
-/
import proofs.«180956_j86492051407493_1_alg».proof.Proof.KI.Launch
import proofs.«180956_j86492051407493_1_alg».proof.Proof.KI.Final
import proofs.«180956_j86492051407493_1_alg».proof.Proof.KI.Prefix
import proofs.«180956_j86492051407493_1_alg».proof.Proof.KI.ResultK
import proofs.«180956_j86492051407493_1_alg».proof.Proof.RefResult
import proofs.«180956_j86492051407493_1_alg».proof.Defs
import proofs.«180956_j86492051407493_1_alg».proof.Proof.Gen.Pre_finite_inputs

noncomputable section

namespace Cert.Proof.Bridge

open Idealize.ShloMosaic Idealize.ShloMosaic.TcCoe Idealize.ShloMosaic.ValueIdx Idealize.SL.Sem
open Cert.KernelIdeal.Hand Cert.KernelIdeal.HandValue

/-- The kernel program's result on core `c`. -/
abbrev resK (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v17) :=
  Pipeline.afterTail₀ Cert.KernelIdeal.cfgs (dats (F := Ideal) m) 0 (V0 m) [Cert.KernelIdeal.Gen.hostOps1] c Cert.KernelIdeal.main_v17

/-- The kernel program's result is the loss of the specification's two columns over the rows it normalised. -/
theorem resK_eq (m : (ℓ : Loc Cert.KernelIdeal.nD Cert.KernelIdeal.τ Cert.KernelIdeal.sig) → Buf (Elt Ideal) ℓ) (c : Dev Cert.KernelIdeal.nD) :
    (resK m c : Vec Ideal Cert.KernelIdeal.S_ .f32) ix0
      = Cert.Loss.loss (Cert.Spec.pos (Zof m c)) (Cert.Spec.den (Zof m c)) :=
  (result_K m c).trans (Cert.Loss.loss_congr (pos_K m c) (den_final m c))

/-- The reference's result is the loss of the specification's two columns over the rows it normalised. -/
theorem resR_eq (x0 x1 : (⟨Cert.ReferenceIdeal.S4096x256, .f32⟩ : BufTy).Contents (Elt Ideal)) :
    Cert.ReferenceIdeal.Read.val_main_v25 (F := Ideal) x0 x1 ix0
      = Cert.Loss.loss (Cert.Spec.pos (Cert.ReferenceIdeal.RefValue.zn x0 x1)) (Cert.Spec.den (Cert.ReferenceIdeal.RefValue.zn x0 x1)) :=
  (Cert.ReferenceIdeal.RefValue.result_R x0 x1).trans
    (Cert.Loss.loss_congr (Cert.ReferenceIdeal.RefValue.ref_pos x0 x1) (Cert.ReferenceIdeal.RefValue.ref_den x0 x1))

/-- From memories that agree on the two inputs, both programs run to the end with equal results and unchanged inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => resK m c, ?_, ?_⟩
  · refine (θ_run Cert.KernelIdeal.defs _ _).mono (fun _ h c => ⟨?_, ?_, ?_⟩) (run_main (F := Ideal) m ρ)
    · exact (h c).2 Cert.KernelIdeal.main_v17 (Pipeline.mem_restRefs_of Cert.KernelIdeal.main_v17 (by decide) (by decide))
    · exact ((h c).2 Cert.KernelIdeal.main_arg0 (Pipeline.mem_restRefs_of Cert.KernelIdeal.main_arg0 (by decide) (by decide))).trans
        ((after_arg m c Cert.KernelIdeal.main_arg0 (.inl rfl)).trans (V_main_arg0 m c))
    · exact ((h c).2 Cert.KernelIdeal.main_arg1 (Pipeline.mem_restRefs_of Cert.KernelIdeal.main_arg1 (by decide) (by decide))).trans
        ((after_arg m c Cert.KernelIdeal.main_arg1 (.inr rfl)).trans (V_main_arg1 m c))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq]
    funext i
    rw [eq_ix0 i]
    refine (resR_eq _ _).trans ?_
    rw [(hagree c).1, (hagree c).2]
    refine Eq.trans ?_ (resK_eq m c).symm
    rw [zn_K m c]

end Cert.Proof.Bridge

end
-- ==== Proof.lean ====
/-
  A contrastive loss over 8192 normalised rows: minus the mean, over the rows, of the logarithm of the similarity of
  a row with its partner divided by the row's denominator, the sum over every OTHER row of `exp (2 · similarity)`.
  The kernel program computes the denominators tile by tile on an 8 × 8 grid — a scratch column zeroed at the first
  key tile, the tile's row sums added at each, the column copied out at the last — zeroing the diagonal after the
  exponential and multiplying by two; the reference sums whole rows of the 8192 × 8192 matrix, the diagonal set to
  `-∞` before the exponential, and divides by one half. Over the extended reals `exp ⊥ = 0`, dividing by `1/2` is
  multiplying by `2`, the narrowing of the products' operands is the identity, and a sum may be regrouped freely, so
  the two denominators agree row by row; the positive pairs agree because multiplication commutes; the last five
  operations are the same. No finiteness of the inputs is used. Each program also runs to the end without a fault and
  leaves its inputs alone: the kernel program's region reads the array of rows through two windows, at two half shares.
-/
import proofs.«180956_j86492051407493_1_alg».proof.Defs
import proofs.«180956_j86492051407493_1_alg».proof.Proof.Gen.Kernel
import proofs.«180956_j86492051407493_1_alg».proof.Proof.Gen.KernelIdeal
import proofs.«180956_j86492051407493_1_alg».proof.Proof.Gen.ReferenceIdeal
import proofs.«180956_j86492051407493_1_alg».proof.Proof.Gen.Pre_finite_inputs
import proofs.«180956_j86492051407493_1_alg».proof.Proof.Gen.ReferenceIdeal.Run
import proofs.«180956_j86492051407493_1_alg».proof.Proof.Gen.ReferenceIdeal.Read
import proofs.«180956_j86492051407493_1_alg».proof.Proof.K.Launch
import proofs.«180956_j86492051407493_1_alg».proof.Proof.KI.Launch
import proofs.«180956_j86492051407493_1_alg».proof.Proof.Bridge
import Idealize.ShloMosaic.Adequacy
import Idealize.ShloMosaic.Init

noncomputable section

namespace Cert.Proof

open Idealize.ShloMosaic Idealize.SL.Sem

/-- The word-level program runs to the end, faults nowhere, and leaves its inputs as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the reference: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Bridge.algebraic⟩

end Cert.Proof

end
